-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  main_v8
-- ==== Kernel.lean ====
abbrev S8x4096x256 : Shape := ⟨3, ![8, 4096, 256]⟩
abbrev S8x1x4096 : Shape := ⟨3, ![8, 1, 4096]⟩
abbrev S8x4096x1 : Shape := ⟨3, ![8, 4096, 1]⟩
abbrev S1x4096x256 : Shape := ⟨3, ![1, 4096, 256]⟩
abbrev S1x512x256 : Shape := ⟨3, ![1, 512, 256]⟩
abbrev S1x1x512 : Shape := ⟨3, ![1, 1, 512]⟩
abbrev S1x4096x1 : Shape := ⟨3, ![1, 4096, 1]⟩
abbrev S4096x1 : Shape := ⟨2, ![4096, 1]⟩
abbrev S4096x256 : Shape := ⟨2, ![4096, 256]⟩
abbrev S512x256 : Shape := ⟨2, ![512, 256]⟩
abbrev S256x512 : Shape := ⟨2, ![256, 512]⟩
abbrev S4096x512 : Shape := ⟨2, ![4096, 512]⟩
abbrev S4096 : Shape := ⟨1, ![4096]⟩
abbrev S512 : Shape := ⟨1, ![512]⟩
abbrev S512x1 : Shape := ⟨2, ![512, 1]⟩
abbrev S1x512 : Shape := ⟨2, ![1, 512]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x1x4096, .f32⟩
  | .hbm, ⟨3, _⟩ => ⟨S8x4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4096x256, .f32⟩
  | .local _ .vmem, ⟨1, _⟩ => ⟨S1x4096x256, .f32⟩
  | .local _ .vmem, ⟨2, _⟩ => ⟨S1x512x256, .f32⟩
  | .local _ .vmem, ⟨3, _⟩ => ⟨S1x512x256, .f32⟩
  | .local _ .vmem, ⟨4, _⟩ => ⟨S1x1x512, .f32⟩
  | .local _ .vmem, ⟨5, _⟩ => ⟨S1x1x512, .f32⟩
  | .local _ .vmem, ⟨6, _⟩ => ⟨S1x4096x1, .f32⟩
  | .local _ .vmem, ⟨7, _⟩ => ⟨S1x4096x1, .f32⟩
  | .local _ .vmem, ⟨8, _⟩ => ⟨S4096x1, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_16 : BitVec 32 := 0#32
  let v35 : BitVec 1 := Scalar.cmpi .ne v34 c0_i32_16
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  transposes_S512x256_p1_0_S256x512 : S512x256.Transposes [1, 0] S256x512
  reduces_S4096x256_S4096 : S4096x256.Reduces [1] S4096
  shapeCasts_S4096_S4096x1 : S4096.ShapeCasts S4096x1
  reduces_S512x256_S512 : S512x256.Reduces [1] S512
  shapeCasts_S512_S512x1 : S512.ShapeCasts S512x1
  transposes_S512x1_p1_0_S1x512 : S512x1.Transposes [1, 0] S1x512
  broadcasts_S4096x1_S4096x512 : S4096x1.Broadcasts S4096x512
  broadcasts_S1x512_S4096x512 : S1x512.Broadcasts S4096x512
  reduces_S4096x512_S512 : S4096x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  reduces_S4096x512_S4096 : S4096x512.Reduces [1] S4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  reducesTo_S8x1x4096_S_d0_1_2 : S8x1x4096.ReducesTo [0, 1, 2] S_
  h_S_ : 0 < S_.numel
  reducesTo_S8x4096x1_S_d0_1_2 : S8x4096x1.ReducesTo [0, 1, 2] S_
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x4096x256.size a
  hwx0_1 : ∀ i : grid0.Coords, EltTy.bits .f32 = 32 ∨ (Rect.block (s := S8x4096x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S8x4096x1.size a
  hwx0_3 : ∀ i : grid0.Coords, EltTy.bits .f32 = 32 ∨ (Rect.block (s := S8x4096x1) S1x4096x1.size (cc0_transform_3 i) (hinb0_3 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S_, .f32⟩
  | .hbm, ⟨4, _⟩ => ⟨S8x4096, .f32⟩
  | .hbm, ⟨5, _⟩ => ⟨S8x4096x256, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S_, .f32⟩
  | .hbm, ⟨26, _⟩ => ⟨S_, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x256_S8x4096x256_S8x4096x4096_2_2_1_1_0_0_wf : DotDims.WF S8x4096x256 S8x4096x256 S8x4096x4096 [2] [2] [1] [1] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf

class Facts : Prop extends Facts₀ where

variable [Facts]
-- ==== Proof.KShared.lean ====
/-
  What the three runs of the kernel body share. The grid is 8 batches by 8 tiles of the second array, point
  `t` being batch `t / 8`, tile `t % 8`. The body branches three times on the tile number `k`: at `k = 0` it
  starts the running row minimum in the scratch column, at `k > 0` it lowers it by the tile's row minimum, and
  at `k = 7` it copies the scratch into the second output's block. So a point is in one of three cases —
  first tile, middle tile, last tile — decided here over the 64 points; the second output's window is idle, and
  not written back, except at the last tile.
-/
import proofs.«163194_j44581760532793_1_alg».proof.Proof.Gen.Kernel.Frame
import proofs.«163194_j44581760532793_1_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions, from the grid coordinates -/

/-- The first branch: the tile number is zero. -/
abbrev cond1 (i : grid0.Coords) : Prop :=
  (Scalar.cmpi .ne (Scalar.extui (Scalar.cmpi .eq (BitVec.ofNat 32 (i 1).val) 0#32)) 0#32) = 1#1
/-- The second branch: the tile number is positive. -/
abbrev cond2 (i : grid0.Coords) : Prop :=
  (Scalar.cmpi .ne (Scalar.extui (Scalar.cmpi .sgt (BitVec.ofNat 32 (i 1).val) 0#32)) 0#32) = 1#1
/-- The third branch: the tile number is seven, the last. -/
abbrev cond3 (i : grid0.Coords) : Prop := k0_cond3 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)
theorem hcond3 : ∀ t : Fin cfg0.N, cond3 (grid0.coords t) ↔ t.val % 8 = 7 :=
  (by decide +kernel : ∀ t : Fin grid0.N, cond3 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from the last tile nothing is stored into the second output's block, -/
theorem idleAt3 : ∀ t : Fin cfg0.N, ¬cond3 (grid0.coords t) → cfg0.idle 3 (grid0.coords t) = true := by decide +kernel
/-- and the block is not written back there; -/
theorem noFlush3 : ∀ t : Fin cfg0.N, ¬cond3 (grid0.coords t) → (cfg0.win 3).flush t = false := by decide +kernel
/-- at the last tile it is stored. -/
theorem liveAt3 : ∀ t : Fin cfg0.N, cond3 (grid0.coords t) → cfg0.idle 3 (grid0.coords t) = false := by decide +kernel

/-! ## The memrefs the body is called with -/

abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x1 .f32 := win0_3.stage (cfg0.slots t 3)
abbrev hs3 (t : Fin cfg0.N) : (ms3 t).IsWhole := hstage0_3 ((cfg0.slots t 3).cast nbuf0_3)
/-- The scratch column that carries the running row minimum from tile to tile. -/
abbrev scM : Memref sig .tc .vmem S4096x1 .f32 := Memref.whole cc0_scratch0
/-- Views through which the contents of the outputs' buffers and of the scratch are stated. -/
abbrev VO2 : View sig .tc .vmem S1x1x512 .f32 := (Memref.whole cc0_stg2_0 : Memref sig .tc .vmem S1x1x512 .f32).view
abbrev VO3 : View sig .tc .vmem S1x4096x1 .f32 := (Memref.whole cc0_stg3_0 : Memref sig .tc .vmem S1x4096x1 .f32).view
abbrev VS : View sig .tc .vmem S4096x1 .f32 := scM.view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KRunA.lean ====
/-
  The kernel body at a point of the first tile (tile number 0): it stores the tile's column minima into the first output's block and STARTS the running row minimum in the scratch column with the tile's row minima; the second output's block is left as it was found.
-/
import proofs.«163194_j44581760532793_1_alg».proof.Proof.KShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the first output's block (`L2`) and in the scratch column (`LS`) at a first-tile point, with the body's triple: from the two input blocks at `x0`, `x1`, the first output's
    buffer and the scratch at anything, the second output's buffer at `xi3`, it runs to the continuation holding the inputs and the second output's buffer as they were and the two stored buffers with their pieces written. -/
noncomputable def kernelRun_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i)
    (x0 : Vec F S1x4096x256 .f32) (x1 : Vec F S1x512x256 .f32) :
    Σ' (L2 : List (View.Piece (Elt F) S1x1x512 .f32)), { LS : List (View.Piece (Elt F) S4096x1 .f32) //
      ∀ (xi3 : Vec F S1x4096x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Hand

end
-- ==== Proof.KRunB.lean ====
/-
  The kernel body at a point of a middle tile (tile numbers 1 to 6): it stores the tile's column minima into the first output's block and LOWERS the running row minimum in the scratch column by the tile's row minima; the second output's block is left as it was found.
-/
import proofs.«163194_j44581760532793_1_alg».proof.Proof.KShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the first output's block (`L2`) and in the scratch column (`LS`) at a middle-tile point, with the body's triple: the scratch is taken at the contents `xs` the point before left. -/
noncomputable def kernelRun_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i)
    (x0 : Vec F S1x4096x256 .f32) (x1 : Vec F S1x512x256 .f32) (xs : Vec F S4096x1 .f32) :
    Σ' (L2 : List (View.Piece (Elt F) S1x1x512 .f32)), { LS : List (View.Piece (Elt F) S4096x1 .f32) //
      ∀ (xi3 : Vec F S1x4096x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Hand

end
-- ==== Proof.KRunC.lean ====
/-
  The kernel body at a point of the last tile (tile number 7): it stores the tile's column minima into the first output's block, lowers the running row minimum in the scratch column by the tile's row minima, and copies the scratch column into the second output's block.
-/
import proofs.«163194_j44581760532793_1_alg».proof.Proof.KShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the two outputs' blocks (`L2`, `L3`) and in the scratch column (`LS`) at a last-tile point, with the body's triple: the scratch is taken at the contents `xs` the point before left, both outputs' buffers at anything. -/
noncomputable def kernelRun_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i)
    (x0 : Vec F S1x4096x256 .f32) (x1 : Vec F S1x512x256 .f32) (xs : Vec F S4096x1 .f32) :
    Σ' (L2 : List (View.Piece (Elt F) S1x1x512 .f32)) (L3 : List (View.Piece (Elt F) S1x4096x1 .f32)), { LS : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Hand

end
-- ==== Proof.KFrame.lean ====
/-
  The kernel region's proof data and its run. After the body at grid point `t` (batch `t / 8`, tile `t % 8`):
  the two input windows' buffers still hold their blocks; the first output's buffer holds the tile's column minima
  (written back at every point); the scratch column holds the running row minimum of the batch over the tiles up
  to this one, started at the first tile and lowered at each later one — so what it holds is defined by recursion
  on the point —; and at the last tile the second output's buffer holds a copy of the scratch column, which is
  written back there and only there. The region's invariant carries the scratch at those contents from one point
  to the next. From this the launch gives the run of the whole program: the region, then the host lines after it.
-/
import proofs.«163194_j44581760532793_1_alg».proof.Proof.KRunA
import proofs.«163194_j44581760532793_1_alg».proof.Proof.KRunB
import proofs.«163194_j44581760532793_1_alg».proof.Proof.KRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem cA1 (t : Fin cfg0.N) (h0 : t.val % 8 = 0) : cond1 (grid0.coords t) := (hcond1 t).mpr h0
theorem cA2 (t : Fin cfg0.N) (h0 : t.val % 8 = 0) : ¬cond2 (grid0.coords t) := fun h => (hcond2 t).mp h h0
theorem cA3 (t : Fin cfg0.N) (h0 : t.val % 8 = 0) : ¬cond3 (grid0.coords t) := fun h => by have := (hcond3 t).mp h; omega
theorem cB1 (t : Fin cfg0.N) (h0 : ¬t.val % 8 = 0) : ¬cond1 (grid0.coords t) := fun h => h0 ((hcond1 t).mp h)
theorem cB2 (t : Fin cfg0.N) (h0 : ¬t.val % 8 = 0) : cond2 (grid0.coords t) := (hcond2 t).mpr h0
theorem cB3 (t : Fin cfg0.N) (h7 : ¬t.val % 8 = 7) : ¬cond3 (grid0.coords t) := fun h => h7 ((hcond3 t).mp h)
theorem cC3 (t : Fin cfg0.N) (h7 : t.val % 8 = 7) : cond3 (grid0.coords t) := (hcond3 t).mpr h7

/-! ## What each case leaves in the outputs' buffers and in the scratch column -/

/-- At a point that stores nothing into the second output's block the proof data needs SOME value for it; nothing
    reads it (the block is neither written back there nor read at the next point). -/
def out3_idle : Vec F S1x4096x1 .f32 :=
  VO3.read (Elt F) (VO3.writes (Elt F) VO3.junk ([] : List (View.Piece (Elt F) S1x4096x1 .f32)))

theorem cover2_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) (y : S1x1x512.Idx) :
    ∃ pc ∈ (kernelRun_A c i arg2 harg2 arg3 harg3 arg4 harg4 arg5 harg5 arg6 harg6 hc1 hc2 hc3 x0 x1).1, y ∈ pc.1.set :=
  View.cover_of_tiledL (kernelRun_A c i arg2 harg2 arg3 harg3 arg4 harg4 arg5 harg5 arg6 harg6 hc1 hc2 hc3 x0 x1).1 S1x1x512.size (by sl_kernel_rfl) y
def out2_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) : Vec F S1x1x512 .f32 :=
  VO2.read (Elt F) (VO2.writes (Elt F) VO2.junk (kernelRun_A c i arg2 harg2 arg3 harg3 arg4 harg4 arg5 harg5 arg6 harg6 hc1 hc2 hc3 x0 x1).1)
theorem scover_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) (y : S4096x1.Idx) :
    ∃ pc ∈ (kernelRun_A c i arg2 harg2 arg3 harg3 arg4 harg4 arg5 harg5 arg6 harg6 hc1 hc2 hc3 x0 x1).2.1, y ∈ pc.1.set :=
  View.cover_of_tiledL (kernelRun_A c i arg2 harg2 arg3 harg3 arg4 harg4 arg5 harg5 arg6 harg6 hc1 hc2 hc3 x0 x1).2.1 S4096x1.size (by sl_kernel_rfl) y
def sout_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) : Vec F S4096x1 .f32 :=
  VS.read (Elt F) (VS.writes (Elt F) VS.junk (kernelRun_A c i arg2 harg2 arg3 harg3 arg4 harg4 arg5 harg5 arg6 harg6 hc1 hc2 hc3 x0 x1).2.1)

theorem cover2_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) (y : S1x1x512.Idx) :
    ∃ pc ∈ (kernelRun_B c i arg2 harg2 arg3 harg3 arg4 harg4 arg5 harg5 arg6 harg6 hc1 hc2 hc3 x0 x1 xs).1, y ∈ pc.1.set :=
  View.cover_of_tiledL (kernelRun_B c i arg2 harg2 arg3 harg3 arg4 harg4 arg5 harg5 arg6 harg6 hc1 hc2 hc3 x0 x1 xs).1 S1x1x512.size (by sl_kernel_rfl) y
def out2_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) : Vec F S1x1x512 .f32 :=
  VO2.read (Elt F) (VO2.writes (Elt F) VO2.junk (kernelRun_B c i arg2 harg2 arg3 harg3 arg4 harg4 arg5 harg5 arg6 harg6 hc1 hc2 hc3 x0 x1 xs).1)
theorem scover_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) (y : S4096x1.Idx) :
    ∃ pc ∈ (kernelRun_B c i arg2 harg2 arg3 harg3 arg4 harg4 arg5 harg5 arg6 harg6 hc1 hc2 hc3 x0 x1 xs).2.1, y ∈ pc.1.set :=
  View.cover_of_tiledL (kernelRun_B c i arg2 harg2 arg3 harg3 arg4 harg4 arg5 harg5 arg6 harg6 hc1 hc2 hc3 x0 x1 xs).2.1 S4096x1.size (by sl_kernel_rfl) y
def sout_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) : Vec F S4096x1 .f32 :=
  VS.read (Elt F) (VS.writes (Elt F) VS.junk (kernelRun_B c i arg2 harg2 arg3 harg3 arg4 harg4 arg5 harg5 arg6 harg6 hc1 hc2 hc3 x0 x1 xs).2.1)

theorem cover2_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) (y : S1x1x512.Idx) :
    ∃ pc ∈ (kernelRun_C c i arg2 harg2 arg3 harg3 arg4 harg4 arg5 harg5 arg6 harg6 hc1 hc2 hc3 x0 x1 xs).1, y ∈ pc.1.set :=
  View.cover_of_tiledL (kernelRun_C c i arg2 harg2 arg3 harg3 arg4 harg4 arg5 harg5 arg6 harg6 hc1 hc2 hc3 x0 x1 xs).1 S1x1x512.size (by sl_kernel_rfl) y
def out2_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) : Vec F S1x1x512 .f32 :=
  VO2.read (Elt F) (VO2.writes (Elt F) VO2.junk (kernelRun_C c i arg2 harg2 arg3 harg3 arg4 harg4 arg5 harg5 arg6 harg6 hc1 hc2 hc3 x0 x1 xs).1)
theorem cover3_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) (y : S1x4096x1.Idx) :
    ∃ pc ∈ (kernelRun_C c i arg2 harg2 arg3 harg3 arg4 harg4 arg5 harg5 arg6 harg6 hc1 hc2 hc3 x0 x1 xs).2.1, y ∈ pc.1.set :=
  View.cover_of_tiledL (kernelRun_C c i arg2 harg2 arg3 harg3 arg4 harg4 arg5 harg5 arg6 harg6 hc1 hc2 hc3 x0 x1 xs).2.1 S1x4096x1.size (by sl_kernel_rfl) y
def out3_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) : Vec F S1x4096x1 .f32 :=
  VO3.read (Elt F) (VO3.writes (Elt F) VO3.junk (kernelRun_C c i arg2 harg2 arg3 harg3 arg4 harg4 arg5 harg5 arg6 harg6 hc1 hc2 hc3 x0 x1 xs).2.1)
theorem scover_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) (y : S4096x1.Idx) :
    ∃ pc ∈ (kernelRun_C c i arg2 harg2 arg3 harg3 arg4 harg4 arg5 harg5 arg6 harg6 hc1 hc2 hc3 x0 x1 xs).2.2.1, y ∈ pc.1.set :=
  View.cover_of_tiledL (kernelRun_C c i arg2 harg2 arg3 harg3 arg4 harg4 arg5 harg5 arg6 harg6 hc1 hc2 hc3 x0 x1 xs).2.2.1 S4096x1.size (by sl_kernel_rfl) y
def sout_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) : Vec F S4096x1 .f32 :=
  VS.read (Elt F) (VS.writes (Elt F) VS.junk (kernelRun_C c i arg2 harg2 arg3 harg3 arg4 harg4 arg5 harg5 arg6 harg6 hc1 hc2 hc3 x0 x1 xs).2.2.1)

/-! ## What the buffers hold after each point -/

/-- After the body at position `n`: the first output's buffer, the second output's, the scratch column. The
    case is read off the tile number `n % 8`; a middle or last tile lowers what the point before left in the scratch. -/
def outsAt (c : Dev nD) : (n : ℕ) → n < cfg0.N → Vec F S1x1x512 .f32 × Vec F S1x4096x1 .f32 × Vec F S4096x1 .f32
  | 0, hn => (out2_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (cA1 ⟨0, hn⟩ (Nat.zero_mod _)) (cA2 ⟨0, hn⟩ (Nat.zero_mod _)) (cA3 ⟨0, hn⟩ (Nat.zero_mod _)) (iblk m c 0 ⟨0, hn⟩) (iblk m c 1 ⟨0, hn⟩), out3_idle, sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (cA1 ⟨0, hn⟩ (Nat.zero_mod _)) (cA2 ⟨0, hn⟩ (Nat.zero_mod _)) (cA3 ⟨0, hn⟩ (Nat.zero_mod _)) (iblk m c 0 ⟨0, hn⟩) (iblk m c 1 ⟨0, hn⟩))
  | n + 1, hn =>
    if h0 : (n + 1) % 8 = 0 then
      (out2_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cA1 ⟨n + 1, hn⟩ h0) (cA2 ⟨n + 1, hn⟩ h0) (cA3 ⟨n + 1, hn⟩ h0) (iblk m c 0 ⟨n + 1, hn⟩) (iblk m c 1 ⟨n + 1, hn⟩), out3_idle, sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cA1 ⟨n + 1, hn⟩ h0) (cA2 ⟨n + 1, hn⟩ h0) (cA3 ⟨n + 1, hn⟩ h0) (iblk m c 0 ⟨n + 1, hn⟩) (iblk m c 1 ⟨n + 1, hn⟩))
    else
      if h7 : (n + 1) % 8 = 7 then
        (out2_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cC3 ⟨n + 1, hn⟩ h7) (iblk m c 0 ⟨n + 1, hn⟩) (iblk m c 1 ⟨n + 1, hn⟩) (outsAt c n (Nat.lt_of_succ_lt hn)).2.2, out3_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cC3 ⟨n + 1, hn⟩ h7) (iblk m c 0 ⟨n + 1, hn⟩) (iblk m c 1 ⟨n + 1, hn⟩) (outsAt c n (Nat.lt_of_succ_lt hn)).2.2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cC3 ⟨n + 1, hn⟩ h7) (iblk m c 0 ⟨n + 1, hn⟩) (iblk m c 1 ⟨n + 1, hn⟩) (outsAt c n (Nat.lt_of_succ_lt hn)).2.2)
      else
        (out2_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cB3 ⟨n + 1, hn⟩ h7) (iblk m c 0 ⟨n + 1, hn⟩) (iblk m c 1 ⟨n + 1, hn⟩) (outsAt c n (Nat.lt_of_succ_lt hn)).2.2, out3_idle, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cB3 ⟨n + 1, hn⟩ h7) (iblk m c 0 ⟨n + 1, hn⟩) (iblk m c 1 ⟨n + 1, hn⟩) (outsAt c n (Nat.lt_of_succ_lt hn)).2.2)

theorem outsAt_A (c : Dev nD) (t : Fin cfg0.N) (h0 : t.val % 8 = 0) :
    outsAt m c t.val t.isLt = (out2_A c (grid0.coords t) (ms0 t) (hs0 t) (ms1 t) (hs1 t) (ms2 t) (hs2 t) (ms3 t) (hs3 t) scM (Memref.isWhole_whole _) (cA1 t h0) (cA2 t h0) (cA3 t h0) (iblk m c 0 t) (iblk m c 1 t), out3_idle, sout_A c (grid0.coords t) (ms0 t) (hs0 t) (ms1 t) (hs1 t) (ms2 t) (hs2 t) (ms3 t) (hs3 t) scM (Memref.isWhole_whole _) (cA1 t h0) (cA2 t h0) (cA3 t h0) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 8 = 0) (h7 : ¬t.val % 8 = 7) :
    outsAt m c t.val t.isLt = (out2_B c (grid0.coords t) (ms0 t) (hs0 t) (ms1 t) (hs1 t) (ms2 t) (hs2 t) (ms3 t) (hs3 t) scM (Memref.isWhole_whole _) (cB1 t h0) (cB2 t h0) (cB3 t h7) (iblk m c 0 t) (iblk m c 1 t) (outsAt m c (t.val - 1) (Nat.lt_of_le_of_lt (Nat.sub_le _ _) t.isLt)).2.2, out3_idle, sout_B c (grid0.coords t) (ms0 t) (hs0 t) (ms1 t) (hs1 t) (ms2 t) (hs2 t) (ms3 t) (hs3 t) scM (Memref.isWhole_whole _) (cB1 t h0) (cB2 t h0) (cB3 t h7) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (out2_C c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2, out3_C c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2, sout_C c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-! ## The invariant: the scratch column carried from point to point -/

def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [liveAt0 t, after_0]
theorem leaves_1 (c : Dev nD) (t : Fin cfg0.N) :
    (dats m 0 c).leavesExact 1 t = owns (c : Thread nD τ) (ms1 t) fullShare (iblk m c 1 t) := by
  unfold Dat.leavesExact; rw [liveAt1 t, after_1]
theorem leaves_2 (c : Dev nD) (t : Fin cfg0.N) :
    (dats m 0 c).leavesExact 2 t = owns (c : Thread nD τ) (ms2 t) fullShare ((outsAt m c t.val t.isLt).1) := by
  unfold Dat.leavesExact; rw [liveAt2 t, after_2]
theorem leaves_3_live (c : Dev nD) (t : Fin cfg0.N) (h : cond3 (grid0.coords t)) :
    (dats m 0 c).leavesExact 3 t = owns (c : Thread nD τ) (ms3 t) fullShare ((outsAt m c t.val t.isLt).2.1) := by
  unfold Dat.leavesExact; rw [liveAt3 t h, after_3]

set_option maxHeartbeats 4800000 in
/-- The body at any point. The inputs' buffers hold their blocks; the tile number says which case the point is in;
    the invariant hands the body the scratch column at what the point before left (at anything before the very first
    point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 64 := lt_of_lt_of_eq t.isLt (show cfg0.N = 64 from N_0)
  by_cases h0 : t.val % 8 = 0
  · rw [Dat.leavesExact_idle (dats m 0 c) 3 t (idleAt3 t (cA3 t h0)) (noFlush3 t (cA3 t h0))]
    rw [outsAt_A m c t h0]
    unfold out2_A sout_A; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ (cA1 t h0) (cA2 t h0) (cA3 t h0) (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ (cA1 t h0) (cA2 t h0) (cA3 t h0) (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
  · have hz : t.val ≠ 0 := fun h => h0 (by rw [h])
    by_cases h7 : t.val % 8 = 7
    · rw [leaves_3_live m c t (cC3 t h7)]
      rw [outsAt_C m c t h0 h7]
      unfold out2_C out3_C sout_C; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_C c (grid0.coords t) _ _ _ _ _ _ _ _ _ _ (cB1 t h0) (cB2 t h0) (cC3 t h7) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_C c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _ _ _)
    · rw [Dat.leavesExact_idle (dats m 0 c) 3 t (idleAt3 t (cB3 t h7)) (noFlush3 t (cB3 t h7))]
      rw [outsAt_B m c t h0 h7]
      unfold out2_B sout_B; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_B c (grid0.coords t) _ _ _ _ _ _ _ _ _ _ (cB1 t h0) (cB2 t h0) (cB3 t h7) (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _ _ _)
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, with every array of the region at what the proof data
    says and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIShared.lean ====
/-
  What the three runs of the kernel body share. The grid is 8 batches by 8 tiles of the second array, point
  `t` being batch `t / 8`, tile `t % 8`. The body branches three times on the tile number `k`: at `k = 0` it
  starts the running row minimum in the scratch column, at `k > 0` it lowers it by the tile's row minimum, and
  at `k = 7` it copies the scratch into the second output's block. So a point is in one of three cases —
  first tile, middle tile, last tile — decided here over the 64 points; the second output's window is idle, and
  not written back, except at the last tile.
-/
import proofs.«163194_j44581760532793_1_alg».proof.Proof.Gen.KernelIdeal.Frame
import proofs.«163194_j44581760532793_1_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions, from the grid coordinates -/

/-- The first branch: the tile number is zero. -/
abbrev cond1 (i : grid0.Coords) : Prop :=
  (Scalar.cmpi .ne (Scalar.extui (Scalar.cmpi .eq (BitVec.ofNat 32 (i 1).val) 0#32)) 0#32) = 1#1
/-- The second branch: the tile number is positive. -/
abbrev cond2 (i : grid0.Coords) : Prop :=
  (Scalar.cmpi .ne (Scalar.extui (Scalar.cmpi .sgt (BitVec.ofNat 32 (i 1).val) 0#32)) 0#32) = 1#1
/-- The third branch: the tile number is seven, the last. -/
abbrev cond3 (i : grid0.Coords) : Prop := k0_cond3 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)
theorem hcond3 : ∀ t : Fin cfg0.N, cond3 (grid0.coords t) ↔ t.val % 8 = 7 :=
  (by decide +kernel : ∀ t : Fin grid0.N, cond3 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from the last tile nothing is stored into the second output's block, -/
theorem idleAt3 : ∀ t : Fin cfg0.N, ¬cond3 (grid0.coords t) → cfg0.idle 3 (grid0.coords t) = true := by decide +kernel
/-- and the block is not written back there; -/
theorem noFlush3 : ∀ t : Fin cfg0.N, ¬cond3 (grid0.coords t) → (cfg0.win 3).flush t = false := by decide +kernel
/-- at the last tile it is stored. -/
theorem liveAt3 : ∀ t : Fin cfg0.N, cond3 (grid0.coords t) → cfg0.idle 3 (grid0.coords t) = false := by decide +kernel

/-! ## The memrefs the body is called with -/

abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x1 .f32 := win0_3.stage (cfg0.slots t 3)
abbrev hs3 (t : Fin cfg0.N) : (ms3 t).IsWhole := hstage0_3 ((cfg0.slots t 3).cast nbuf0_3)
/-- The scratch column that carries the running row minimum from tile to tile. -/
abbrev scM : Memref sig .tc .vmem S4096x1 .f32 := Memref.whole cc0_scratch0
/-- Views through which the contents of the outputs' buffers and of the scratch are stated. -/
abbrev VO2 : View sig .tc .vmem S1x1x512 .f32 := (Memref.whole cc0_stg2_0 : Memref sig .tc .vmem S1x1x512 .f32).view
abbrev VO3 : View sig .tc .vmem S1x4096x1 .f32 := (Memref.whole cc0_stg3_0 : Memref sig .tc .vmem S1x4096x1 .f32).view
abbrev VS : View sig .tc .vmem S4096x1 .f32 := scM.view

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KIRunA.lean ====
/-
  The kernel body at a point of the first tile (tile number 0): it stores the tile's column minima into the first output's block and STARTS the running row minimum in the scratch column with the tile's row minima; the second output's block is left as it was found.
-/
import proofs.«163194_j44581760532793_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the first output's block (`L2`) and in the scratch column (`LS`) at a first-tile point, with the body's triple: from the two input blocks at `x0`, `x1`, the first output's
    buffer and the scratch at anything, the second output's buffer at `xi3`, it runs to the continuation holding the inputs and the second output's buffer as they were and the two stored buffers with their pieces written. -/
noncomputable def kernelRun_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i)
    (x0 : Vec F S1x4096x256 .f32) (x1 : Vec F S1x512x256 .f32) :
    Σ' (L2 : List (View.Piece (Elt F) S1x1x512 .f32)), { LS : List (View.Piece (Elt F) S4096x1 .f32) //
      ∀ (xi3 : Vec F S1x4096x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Hand

end
-- ==== Proof.KIRunB.lean ====
/-
  The kernel body at a point of a middle tile (tile numbers 1 to 6): it stores the tile's column minima into the first output's block and LOWERS the running row minimum in the scratch column by the tile's row minima; the second output's block is left as it was found.
-/
import proofs.«163194_j44581760532793_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the first output's block (`L2`) and in the scratch column (`LS`) at a middle-tile point, with the body's triple: the scratch is taken at the contents `xs` the point before left. -/
noncomputable def kernelRun_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i)
    (x0 : Vec F S1x4096x256 .f32) (x1 : Vec F S1x512x256 .f32) (xs : Vec F S4096x1 .f32) :
    Σ' (L2 : List (View.Piece (Elt F) S1x1x512 .f32)), { LS : List (View.Piece (Elt F) S4096x1 .f32) //
      ∀ (xi3 : Vec F S1x4096x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Hand

end
-- ==== Proof.KIRunC.lean ====
/-
  The kernel body at a point of the last tile (tile number 7): it stores the tile's column minima into the first output's block, lowers the running row minimum in the scratch column by the tile's row minima, and copies the scratch column into the second output's block.
-/
import proofs.«163194_j44581760532793_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the two outputs' blocks (`L2`, `L3`) and in the scratch column (`LS`) at a last-tile point, with the body's triple: the scratch is taken at the contents `xs` the point before left, both outputs' buffers at anything. -/
noncomputable def kernelRun_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i)
    (x0 : Vec F S1x4096x256 .f32) (x1 : Vec F S1x512x256 .f32) (xs : Vec F S4096x1 .f32) :
    Σ' (L2 : List (View.Piece (Elt F) S1x1x512 .f32)) (L3 : List (View.Piece (Elt F) S1x4096x1 .f32)), { LS : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Hand

end
-- ==== Proof.KIFrame.lean ====
/-
  The kernel region's proof data and its run. After the body at grid point `t` (batch `t / 8`, tile `t % 8`):
  the two input windows' buffers still hold their blocks; the first output's buffer holds the tile's column minima
  (written back at every point); the scratch column holds the running row minimum of the batch over the tiles up
  to this one, started at the first tile and lowered at each later one — so what it holds is defined by recursion
  on the point —; and at the last tile the second output's buffer holds a copy of the scratch column, which is
  written back there and only there. The region's invariant carries the scratch at those contents from one point
  to the next. From this the launch gives the run of the whole program: the region, then the host lines after it.
-/
import proofs.«163194_j44581760532793_1_alg».proof.Proof.KIRunA
import proofs.«163194_j44581760532793_1_alg».proof.Proof.KIRunB
import proofs.«163194_j44581760532793_1_alg».proof.Proof.KIRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem cA1 (t : Fin cfg0.N) (h0 : t.val % 8 = 0) : cond1 (grid0.coords t) := (hcond1 t).mpr h0
theorem cA2 (t : Fin cfg0.N) (h0 : t.val % 8 = 0) : ¬cond2 (grid0.coords t) := fun h => (hcond2 t).mp h h0
theorem cA3 (t : Fin cfg0.N) (h0 : t.val % 8 = 0) : ¬cond3 (grid0.coords t) := fun h => by have := (hcond3 t).mp h; omega
theorem cB1 (t : Fin cfg0.N) (h0 : ¬t.val % 8 = 0) : ¬cond1 (grid0.coords t) := fun h => h0 ((hcond1 t).mp h)
theorem cB2 (t : Fin cfg0.N) (h0 : ¬t.val % 8 = 0) : cond2 (grid0.coords t) := (hcond2 t).mpr h0
theorem cB3 (t : Fin cfg0.N) (h7 : ¬t.val % 8 = 7) : ¬cond3 (grid0.coords t) := fun h => h7 ((hcond3 t).mp h)
theorem cC3 (t : Fin cfg0.N) (h7 : t.val % 8 = 7) : cond3 (grid0.coords t) := (hcond3 t).mpr h7

/-! ## What each case leaves in the outputs' buffers and in the scratch column -/

/-- At a point that stores nothing into the second output's block the proof data needs SOME value for it; nothing
    reads it (the block is neither written back there nor read at the next point). -/
def out3_idle : Vec F S1x4096x1 .f32 :=
  VO3.read (Elt F) (VO3.writes (Elt F) VO3.junk ([] : List (View.Piece (Elt F) S1x4096x1 .f32)))

theorem cover2_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) (y : S1x1x512.Idx) :
    ∃ pc ∈ (kernelRun_A c i arg2 harg2 arg3 harg3 arg4 harg4 arg5 harg5 arg6 harg6 hc1 hc2 hc3 x0 x1).1, y ∈ pc.1.set :=
  View.cover_of_tiledL (kernelRun_A c i arg2 harg2 arg3 harg3 arg4 harg4 arg5 harg5 arg6 harg6 hc1 hc2 hc3 x0 x1).1 S1x1x512.size (by sl_kernel_rfl) y
def out2_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) : Vec F S1x1x512 .f32 :=
  VO2.read (Elt F) (VO2.writes (Elt F) VO2.junk (kernelRun_A c i arg2 harg2 arg3 harg3 arg4 harg4 arg5 harg5 arg6 harg6 hc1 hc2 hc3 x0 x1).1)
theorem scover_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) (y : S4096x1.Idx) :
    ∃ pc ∈ (kernelRun_A c i arg2 harg2 arg3 harg3 arg4 harg4 arg5 harg5 arg6 harg6 hc1 hc2 hc3 x0 x1).2.1, y ∈ pc.1.set :=
  View.cover_of_tiledL (kernelRun_A c i arg2 harg2 arg3 harg3 arg4 harg4 arg5 harg5 arg6 harg6 hc1 hc2 hc3 x0 x1).2.1 S4096x1.size (by sl_kernel_rfl) y
def sout_A (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) : Vec F S4096x1 .f32 :=
  VS.read (Elt F) (VS.writes (Elt F) VS.junk (kernelRun_A c i arg2 harg2 arg3 harg3 arg4 harg4 arg5 harg5 arg6 harg6 hc1 hc2 hc3 x0 x1).2.1)

theorem cover2_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) (y : S1x1x512.Idx) :
    ∃ pc ∈ (kernelRun_B c i arg2 harg2 arg3 harg3 arg4 harg4 arg5 harg5 arg6 harg6 hc1 hc2 hc3 x0 x1 xs).1, y ∈ pc.1.set :=
  View.cover_of_tiledL (kernelRun_B c i arg2 harg2 arg3 harg3 arg4 harg4 arg5 harg5 arg6 harg6 hc1 hc2 hc3 x0 x1 xs).1 S1x1x512.size (by sl_kernel_rfl) y
def out2_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) : Vec F S1x1x512 .f32 :=
  VO2.read (Elt F) (VO2.writes (Elt F) VO2.junk (kernelRun_B c i arg2 harg2 arg3 harg3 arg4 harg4 arg5 harg5 arg6 harg6 hc1 hc2 hc3 x0 x1 xs).1)
theorem scover_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) (y : S4096x1.Idx) :
    ∃ pc ∈ (kernelRun_B c i arg2 harg2 arg3 harg3 arg4 harg4 arg5 harg5 arg6 harg6 hc1 hc2 hc3 x0 x1 xs).2.1, y ∈ pc.1.set :=
  View.cover_of_tiledL (kernelRun_B c i arg2 harg2 arg3 harg3 arg4 harg4 arg5 harg5 arg6 harg6 hc1 hc2 hc3 x0 x1 xs).2.1 S4096x1.size (by sl_kernel_rfl) y
def sout_B (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) : Vec F S4096x1 .f32 :=
  VS.read (Elt F) (VS.writes (Elt F) VS.junk (kernelRun_B c i arg2 harg2 arg3 harg3 arg4 harg4 arg5 harg5 arg6 harg6 hc1 hc2 hc3 x0 x1 xs).2.1)

theorem cover2_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) (y : S1x1x512.Idx) :
    ∃ pc ∈ (kernelRun_C c i arg2 harg2 arg3 harg3 arg4 harg4 arg5 harg5 arg6 harg6 hc1 hc2 hc3 x0 x1 xs).1, y ∈ pc.1.set :=
  View.cover_of_tiledL (kernelRun_C c i arg2 harg2 arg3 harg3 arg4 harg4 arg5 harg5 arg6 harg6 hc1 hc2 hc3 x0 x1 xs).1 S1x1x512.size (by sl_kernel_rfl) y
def out2_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) : Vec F S1x1x512 .f32 :=
  VO2.read (Elt F) (VO2.writes (Elt F) VO2.junk (kernelRun_C c i arg2 harg2 arg3 harg3 arg4 harg4 arg5 harg5 arg6 harg6 hc1 hc2 hc3 x0 x1 xs).1)
theorem cover3_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) (y : S1x4096x1.Idx) :
    ∃ pc ∈ (kernelRun_C c i arg2 harg2 arg3 harg3 arg4 harg4 arg5 harg5 arg6 harg6 hc1 hc2 hc3 x0 x1 xs).2.1, y ∈ pc.1.set :=
  View.cover_of_tiledL (kernelRun_C c i arg2 harg2 arg3 harg3 arg4 harg4 arg5 harg5 arg6 harg6 hc1 hc2 hc3 x0 x1 xs).2.1 S1x4096x1.size (by sl_kernel_rfl) y
def out3_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) : Vec F S1x4096x1 .f32 :=
  VO3.read (Elt F) (VO3.writes (Elt F) VO3.junk (kernelRun_C c i arg2 harg2 arg3 harg3 arg4 harg4 arg5 harg5 arg6 harg6 hc1 hc2 hc3 x0 x1 xs).2.1)
theorem scover_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) (y : S4096x1.Idx) :
    ∃ pc ∈ (kernelRun_C c i arg2 harg2 arg3 harg3 arg4 harg4 arg5 harg5 arg6 harg6 hc1 hc2 hc3 x0 x1 xs).2.2.1, y ∈ pc.1.set :=
  View.cover_of_tiledL (kernelRun_C c i arg2 harg2 arg3 harg3 arg4 harg4 arg5 harg5 arg6 harg6 hc1 hc2 hc3 x0 x1 xs).2.2.1 S4096x1.size (by sl_kernel_rfl) y
def sout_C (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) : Vec F S4096x1 .f32 :=
  VS.read (Elt F) (VS.writes (Elt F) VS.junk (kernelRun_C c i arg2 harg2 arg3 harg3 arg4 harg4 arg5 harg5 arg6 harg6 hc1 hc2 hc3 x0 x1 xs).2.2.1)

/-! ## What the buffers hold after each point -/

/-- After the body at position `n`: the first output's buffer, the second output's, the scratch column. The
    case is read off the tile number `n % 8`; a middle or last tile lowers what the point before left in the scratch. -/
def outsAt (c : Dev nD) : (n : ℕ) → n < cfg0.N → Vec F S1x1x512 .f32 × Vec F S1x4096x1 .f32 × Vec F S4096x1 .f32
  | 0, hn => (out2_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (cA1 ⟨0, hn⟩ (Nat.zero_mod _)) (cA2 ⟨0, hn⟩ (Nat.zero_mod _)) (cA3 ⟨0, hn⟩ (Nat.zero_mod _)) (iblk m c 0 ⟨0, hn⟩) (iblk m c 1 ⟨0, hn⟩), out3_idle, sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (cA1 ⟨0, hn⟩ (Nat.zero_mod _)) (cA2 ⟨0, hn⟩ (Nat.zero_mod _)) (cA3 ⟨0, hn⟩ (Nat.zero_mod _)) (iblk m c 0 ⟨0, hn⟩) (iblk m c 1 ⟨0, hn⟩))
  | n + 1, hn =>
    if h0 : (n + 1) % 8 = 0 then
      (out2_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cA1 ⟨n + 1, hn⟩ h0) (cA2 ⟨n + 1, hn⟩ h0) (cA3 ⟨n + 1, hn⟩ h0) (iblk m c 0 ⟨n + 1, hn⟩) (iblk m c 1 ⟨n + 1, hn⟩), out3_idle, sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cA1 ⟨n + 1, hn⟩ h0) (cA2 ⟨n + 1, hn⟩ h0) (cA3 ⟨n + 1, hn⟩ h0) (iblk m c 0 ⟨n + 1, hn⟩) (iblk m c 1 ⟨n + 1, hn⟩))
    else
      if h7 : (n + 1) % 8 = 7 then
        (out2_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cC3 ⟨n + 1, hn⟩ h7) (iblk m c 0 ⟨n + 1, hn⟩) (iblk m c 1 ⟨n + 1, hn⟩) (outsAt c n (Nat.lt_of_succ_lt hn)).2.2, out3_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cC3 ⟨n + 1, hn⟩ h7) (iblk m c 0 ⟨n + 1, hn⟩) (iblk m c 1 ⟨n + 1, hn⟩) (outsAt c n (Nat.lt_of_succ_lt hn)).2.2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cC3 ⟨n + 1, hn⟩ h7) (iblk m c 0 ⟨n + 1, hn⟩) (iblk m c 1 ⟨n + 1, hn⟩) (outsAt c n (Nat.lt_of_succ_lt hn)).2.2)
      else
        (out2_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cB3 ⟨n + 1, hn⟩ h7) (iblk m c 0 ⟨n + 1, hn⟩) (iblk m c 1 ⟨n + 1, hn⟩) (outsAt c n (Nat.lt_of_succ_lt hn)).2.2, out3_idle, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (cB1 ⟨n + 1, hn⟩ h0) (cB2 ⟨n + 1, hn⟩ h0) (cB3 ⟨n + 1, hn⟩ h7) (iblk m c 0 ⟨n + 1, hn⟩) (iblk m c 1 ⟨n + 1, hn⟩) (outsAt c n (Nat.lt_of_succ_lt hn)).2.2)

theorem outsAt_A (c : Dev nD) (t : Fin cfg0.N) (h0 : t.val % 8 = 0) :
    outsAt m c t.val t.isLt = (out2_A c (grid0.coords t) (ms0 t) (hs0 t) (ms1 t) (hs1 t) (ms2 t) (hs2 t) (ms3 t) (hs3 t) scM (Memref.isWhole_whole _) (cA1 t h0) (cA2 t h0) (cA3 t h0) (iblk m c 0 t) (iblk m c 1 t), out3_idle, sout_A c (grid0.coords t) (ms0 t) (hs0 t) (ms1 t) (hs1 t) (ms2 t) (hs2 t) (ms3 t) (hs3 t) scM (Memref.isWhole_whole _) (cA1 t h0) (cA2 t h0) (cA3 t h0) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 8 = 0) (h7 : ¬t.val % 8 = 7) :
    outsAt m c t.val t.isLt = (out2_B c (grid0.coords t) (ms0 t) (hs0 t) (ms1 t) (hs1 t) (ms2 t) (hs2 t) (ms3 t) (hs3 t) scM (Memref.isWhole_whole _) (cB1 t h0) (cB2 t h0) (cB3 t h7) (iblk m c 0 t) (iblk m c 1 t) (outsAt m c (t.val - 1) (Nat.lt_of_le_of_lt (Nat.sub_le _ _) t.isLt)).2.2, out3_idle, sout_B c (grid0.coords t) (ms0 t) (hs0 t) (ms1 t) (hs1 t) (ms2 t) (hs2 t) (ms3 t) (hs3 t) scM (Memref.isWhole_whole _) (cB1 t h0) (cB2 t h0) (cB3 t h7) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (out2_C c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2, out3_C c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2, sout_C c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-! ## The invariant: the scratch column carried from point to point -/

def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [liveAt0 t, after_0]
theorem leaves_1 (c : Dev nD) (t : Fin cfg0.N) :
    (dats m 0 c).leavesExact 1 t = owns (c : Thread nD τ) (ms1 t) fullShare (iblk m c 1 t) := by
  unfold Dat.leavesExact; rw [liveAt1 t, after_1]
theorem leaves_2 (c : Dev nD) (t : Fin cfg0.N) :
    (dats m 0 c).leavesExact 2 t = owns (c : Thread nD τ) (ms2 t) fullShare ((outsAt m c t.val t.isLt).1) := by
  unfold Dat.leavesExact; rw [liveAt2 t, after_2]
theorem leaves_3_live (c : Dev nD) (t : Fin cfg0.N) (h : cond3 (grid0.coords t)) :
    (dats m 0 c).leavesExact 3 t = owns (c : Thread nD τ) (ms3 t) fullShare ((outsAt m c t.val t.isLt).2.1) := by
  unfold Dat.leavesExact; rw [liveAt3 t h, after_3]

set_option maxHeartbeats 4800000 in
/-- The body at any point. The inputs' buffers hold their blocks; the tile number says which case the point is in;
    the invariant hands the body the scratch column at what the point before left (at anything before the very first
    point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 64 := lt_of_lt_of_eq t.isLt (show cfg0.N = 64 from N_0)
  by_cases h0 : t.val % 8 = 0
  · rw [Dat.leavesExact_idle (dats m 0 c) 3 t (idleAt3 t (cA3 t h0)) (noFlush3 t (cA3 t h0))]
    rw [outsAt_A m c t h0]
    unfold out2_A sout_A; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ (cA1 t h0) (cA2 t h0) (cA3 t h0) (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ (cA1 t h0) (cA2 t h0) (cA3 t h0) (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
  · have hz : t.val ≠ 0 := fun h => h0 (by rw [h])
    by_cases h7 : t.val % 8 = 7
    · rw [leaves_3_live m c t (cC3 t h7)]
      rw [outsAt_C m c t h0 h7]
      unfold out2_C out3_C sout_C; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_C c (grid0.coords t) _ _ _ _ _ _ _ _ _ _ (cB1 t h0) (cB2 t h0) (cC3 t h7) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_C c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _ _ _)
    · rw [Dat.leavesExact_idle (dats m 0 c) 3 t (idleAt3 t (cB3 t h7)) (noFlush3 t (cB3 t h7))]
      rw [outsAt_B m c t h0 h7]
      unfold out2_B sout_B; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_B c (grid0.coords t) _ _ _ _ _ _ _ _ _ _ (cB1 t h0) (cB2 t h0) (cB3 t h7) (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _ _ _)
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, with every array of the region at what the proof data
    says and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KIPieces.lean ====
/-
  What each case of the kernel body leaves, as values: the pieces its stores wrote, read back, are the body's own
  pure payloads of the blocks it loaded — the tile's column minima in the first output's block, the tile's row minima
  (first tile) or the scratch's earlier contents lowered by them (later tiles) in the scratch column, and at the last
  tile the scratch column's new contents, laid out as a [1, 4096, 1] block, in the second output's block.
-/
import proofs.«163194_j44581760532793_1_alg».proof.Proof.KIFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## First tile -/

theorem out2_A_eq (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) :
    out2_A c i arg2 harg2 arg3 harg3 arg4 harg4 arg5 harg5 arg6 harg6 hc1 hc2 hc3 x0 x1 = k0_pay3 x0 x1 := by
  unfold out2_A
  rw [View.read_writes_eq_canon _ _ _ (cover2_A c i arg2 harg2 arg3 harg3 arg4 harg4 arg5 harg5 arg6 harg6 hc1 hc2 hc3 x0 x1)]
  unfold kernelRun_A
  dsimp only
  sl_unfold_words
  rw [View.canon_unit_zero hz3]
  simp only [View.readAt_eq_ld, harg2.read_unread, harg3.read_unread, View.ld_unit_zero (S := S1x4096x256) hz3, View.ld_unit_zero (S := S1x512x256) hz3]

theorem sout_A_eq (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : cond1 i) (hc2 : ¬cond2 i) (hc3 : ¬cond3 i) (x0 : Vec F S1x4096x256 .f32) (x1 : Vec F S1x512x256 .f32) :
    sout_A c i arg2 harg2 arg3 harg3 arg4 harg4 arg5 harg5 arg6 harg6 hc1 hc2 hc3 x0 x1 = k0_pay5 x0 x1 := by
  unfold sout_A
  rw [View.read_writes_eq_canon _ _ _ (scover_A c i arg2 harg2 arg3 harg3 arg4 harg4 arg5 harg5 arg6 harg6 hc1 hc2 hc3 x0 x1)]
  unfold kernelRun_A
  dsimp only
  sl_unfold_words
  rw [View.canon_unit_zero hz2]
  simp only [View.readAt_eq_ld, harg2.read_unread, harg3.read_unread, View.ld_unit_zero (S := S1x4096x256) hz3, View.ld_unit_zero (S := S1x512x256) hz3]

/-! ## Middle tiles -/

theorem out2_B_eq (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) :
    out2_B c i arg2 harg2 arg3 harg3 arg4 harg4 arg5 harg5 arg6 harg6 hc1 hc2 hc3 x0 x1 xs = k0_pay3 x0 x1 := by
  unfold out2_B
  rw [View.read_writes_eq_canon _ _ _ (cover2_B c i arg2 harg2 arg3 harg3 arg4 harg4 arg5 harg5 arg6 harg6 hc1 hc2 hc3 x0 x1 xs)]
  unfold kernelRun_B
  dsimp only
  sl_unfold_words
  rw [View.canon_unit_zero hz3]
  simp only [View.readAt_eq_ld, harg2.read_unread, harg3.read_unread, View.ld_unit_zero (S := S1x4096x256) hz3, View.ld_unit_zero (S := S1x512x256) hz3]

theorem sout_B_eq (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : ¬cond3 i) (x0 : Vec F S1x4096x256 .f32) (x1 : Vec F S1x512x256 .f32) (xs : Vec F S4096x1 .f32) :
    sout_B c i arg2 harg2 arg3 harg3 arg4 harg4 arg5 harg5 arg6 harg6 hc1 hc2 hc3 x0 x1 xs = k0_pay6 x0 x1 xs := by
  unfold sout_B
  rw [View.read_writes_eq_canon _ _ _ (scover_B c i arg2 harg2 arg3 harg3 arg4 harg4 arg5 harg5 arg6 harg6 hc1 hc2 hc3 x0 x1 xs)]
  unfold kernelRun_B
  dsimp only
  sl_unfold_words
  rw [View.canon_unit_zero hz2]
  simp only [View.readAt_eq_ld, harg2.read_unread, harg3.read_unread, harg6.read_unread, View.ld_unit_zero (S := S1x4096x256) hz3, View.ld_unit_zero (S := S1x512x256) hz3, View.ld_unit_zero (S := S4096x1) hz2]

/-! ## Last tile -/

theorem out2_C_eq (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) :
    out2_C c i arg2 harg2 arg3 harg3 arg4 harg4 arg5 harg5 arg6 harg6 hc1 hc2 hc3 x0 x1 xs = k0_pay3 x0 x1 := by
  unfold out2_C
  rw [View.read_writes_eq_canon _ _ _ (cover2_C c i arg2 harg2 arg3 harg3 arg4 harg4 arg5 harg5 arg6 harg6 hc1 hc2 hc3 x0 x1 xs)]
  unfold kernelRun_C
  dsimp only
  sl_unfold_words
  rw [View.canon_unit_zero hz3]
  simp only [View.readAt_eq_ld, harg2.read_unread, harg3.read_unread, View.ld_unit_zero (S := S1x4096x256) hz3, View.ld_unit_zero (S := S1x512x256) hz3]

theorem sout_C_eq (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) :
    sout_C c i arg2 harg2 arg3 harg3 arg4 harg4 arg5 harg5 arg6 harg6 hc1 hc2 hc3 x0 x1 xs = k0_pay6 x0 x1 xs := by
  unfold sout_C
  rw [View.read_writes_eq_canon _ _ _ (scover_C c i arg2 harg2 arg3 harg3 arg4 harg4 arg5 harg5 arg6 harg6 hc1 hc2 hc3 x0 x1 xs)]
  unfold kernelRun_C
  dsimp only
  sl_unfold_words
  rw [View.canon_unit_zero hz2]
  simp only [View.readAt_eq_ld, harg2.read_unread, harg3.read_unread, harg6.read_unread, View.ld_unit_zero (S := S1x4096x256) hz3, View.ld_unit_zero (S := S1x512x256) hz3, View.ld_unit_zero (S := S4096x1) hz2]

theorem out3_C_eq (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x4096x1 .f32) (harg5 : arg5.IsWhole) (arg6 : Memref sig .tc .vmem S4096x1 .f32) (harg6 : arg6.IsWhole) (hc1 : ¬cond1 i) (hc2 : cond2 i) (hc3 : cond3 i) (x0 : Vec F S1x4096x256 .f32) (x1 : Vec F S1x512x256 .f32) (xs : Vec F S4096x1 .f32) :
    out3_C c i arg2 harg2 arg3 harg3 arg4 harg4 arg5 harg5 arg6 harg6 hc1 hc2 hc3 x0 x1 xs = k0_pay1 (k0_pay6 x0 x1 xs) := by
  unfold out3_C
  rw [View.read_writes_eq_canon _ _ _ (cover3_C c i arg2 harg2 arg3 harg3 arg4 harg4 arg5 harg5 arg6 harg6 hc1 hc2 hc3 x0 x1 xs)]
  unfold kernelRun_C
  dsimp only
  sl_unfold_words
  rw [View.canon_unit_zero hz3]
  simp only [View.readAt_eq_ld, harg2.read_unread, harg3.read_unread, harg6.read_unread, View.ld_unit_zero (S := S1x4096x256) hz3, View.ld_unit_zero (S := S1x512x256) hz3, View.ld_unit_zero (S := S4096x1) hz2, View.readCov_unit_zero (S := S4096x1) _ hz2]

end Cert.KernelIdeal.Hand

end
-- ==== Proof.Spec.lean ====
/-
  The squared-distance loss, stated once over the two argument arrays as a function of their entries on the
  extended reals; every other module of this proof says that one of the two programs computes a piece of it.

  For a batch `b`, a row `n` of the first array and a row `j` of the second, `dist x y b n j` is
  `(‖x_b,n‖² + ‖y_b,j‖²) − 2·⟨x_b,n , y_b,j⟩`, the sums running over the 256 features. The loss adds, over all
  batches, the minimum of each column `j` over the rows `n` and the minimum of each row `n` over the columns `j`.
  A minimum over a finite index type is `Finset.inf` (from `⊤`, the value `+∞` both programs start their
  minima from).
-/
import Idealize.ShloMosaic.PureOps.Ideal
import Idealize.ShloMosaic.Lib.ValueIdx

noncomputable section

open scoped BigOperators

namespace Cert.Chamfer

open Idealize.ShloMosaic Idealize.ShloMosaic.ValueIdx

/-- The shape of each argument array: 8 batches of 4096 rows of 256 features. -/
abbrev SArg : Shape := ⟨3, ![8, 4096, 256]⟩
/-- One batch of the first array as the kernel sees it: all 4096 rows. -/
abbrev SXb : Shape := ⟨3, ![1, 4096, 256]⟩
/-- One tile of 512 rows of the second array. -/
abbrev SYt : Shape := ⟨3, ![1, 512, 256]⟩

/-- The factor two, as both programs write it: the f32 pattern of 2.0. -/
def two : EReal := Ideal.ofBits .f32 0x40000000#32

/-- The squared norm of row `n` of batch `b`. -/
def sq (x : FVec Ideal SArg .f32) (b : Fin 8) (n : Fin 4096) : EReal :=
  ∑ d : Fin 256, x (ix3 b n d) * x (ix3 b n d)

/-- The inner product of row `n` of `x` and row `j` of `y` in batch `b`. -/
def dot (x y : FVec Ideal SArg .f32) (b : Fin 8) (n j : Fin 4096) : EReal :=
  ∑ d : Fin 256, x (ix3 b n d) * y (ix3 b j d)

/-- The squared distance between row `n` of `x` and row `j` of `y` in batch `b`, in the grouping both programs use. -/
def dist (x y : FVec Ideal SArg .f32) (b : Fin 8) (n j : Fin 4096) : EReal :=
  (sq x b n + sq y b j) - two * dot x y b n j

/-- The least distance from column `j` to any row. -/
def colMin (x y : FVec Ideal SArg .f32) (b : Fin 8) (j : Fin 4096) : EReal :=
  Finset.univ.inf fun n : Fin 4096 => dist x y b n j

/-- The least distance from row `n` to any column. -/
def rowMin (x y : FVec Ideal SArg .f32) (b : Fin 8) (n : Fin 4096) : EReal :=
  Finset.univ.inf fun j : Fin 4096 => dist x y b n j

/-- The loss: the column minima summed, plus the row minima summed. -/
def loss (x y : FVec Ideal SArg .f32) : EReal :=
  (∑ b : Fin 8, ∑ j : Fin 4096, colMin x y b j) + (∑ b : Fin 8, ∑ n : Fin 4096, rowMin x y b n)

/-- The same distance on one batch of `x` and one tile of 512 rows of `y`, as the kernel body meets them. -/
def tdist (xb : FVec Ideal SXb .f32) (yt : FVec Ideal SYt .f32) (n : Fin 4096) (j : Fin 512) : EReal :=
  ((∑ d : Fin 256, xb (ix3 0 n d) * xb (ix3 0 n d)) + (∑ d : Fin 256, yt (ix3 0 j d) * yt (ix3 0 j d)))
    - two * ∑ d : Fin 256, xb (ix3 0 n d) * yt (ix3 0 j d)

/-- Column `j` of tile `k` of the second array is its row `512·k + j`. -/
def tileRow (k : Fin 8) (j : Fin 512) : Fin 4096 := ⟨512 * k.val + j.val, by omega⟩

end Cert.Chamfer

end
-- ==== Proof.KIBlocks.lean ====
/-
  The blocks the kernel body is handed at grid point `t`, read as entries of the two argument arrays. Point `t`
  is batch `t / 8`, tile `t % 8`: the first window's block is the whole batch `t / 8` of the first array, the
  second window's block is rows `512·(t % 8) … 512·(t % 8) + 511` of batch `t / 8` of the second. So the squared
  distance the body computes on its two blocks at row `n`, column `j` is the squared distance between row `n` of
  the first array and row `512·(t % 8) + j` of the second, in batch `t / 8`.
-/
import proofs.«163194_j44581760532793_1_alg».proof.Proof.Gen.KernelIdeal.Frame
import proofs.«163194_j44581760532793_1_alg».proof.Proof.Spec
import Idealize.ShloMosaic.Lib.Pipeline.Value
import Idealize.ShloMosaic.Lib.ValueIdx

set_option maxRecDepth 16384

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ) (ρ : Dev nD → PrngReg)

/-- The two argument arrays as the region finds them. -/
abbrev xarr (c : Dev nD) : FVec Ideal S8x4096x256 .f32 := m ((c : Thread nD τ).loc main_arg0)
abbrev yarr (c : Dev nD) : FVec Ideal S8x4096x256 .f32 := m ((c : Thread nD τ).loc main_arg1)
/-- The two input blocks at point `t`, at their literal types. -/
abbrev xblk (c : Dev nD) (t : Fin cfg0.N) : Vec Ideal S1x4096x256 .f32 := iblk m c 0 t
abbrev yblk (c : Dev nD) (t : Fin cfg0.N) : Vec Ideal S1x512x256 .f32 := iblk m c 1 t

/-- The batch and the tile of a grid point. -/
def bOf (t : Fin cfg0.N) : Fin 8 := ⟨t.val / 8, by have h := t.isLt; have hN : cfg0.N = 64 := N_0; omega⟩
def kOf (t : Fin cfg0.N) : Fin 8 := ⟨t.val % 8, by omega⟩

/-- The printed index maps, decided over the grid. -/
theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, win0_0.index t (0 : Fin 3) = t.val / 8 ∧ win0_0.index t (1 : Fin 3) = 0 ∧ win0_0.index t (2 : Fin 3) = 0)
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, win0_1.index t (0 : Fin 3) = t.val / 8 ∧ win0_1.index t (1 : Fin 3) = t.val % 8 ∧ win0_1.index t (2 : Fin 3) = 0)
theorem idx2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, win0_2.index t (0 : Fin 3) = t.val / 8 ∧ win0_2.index t (1 : Fin 3) = 0 ∧ win0_2.index t (2 : Fin 3) = t.val % 8)
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- Row `n`, feature `d` of the first block is that entry of batch `t / 8` of the first array. -/
theorem xblk_apply (c : Dev nD) (t : Fin cfg0.N) (n : Fin 4096) (d : Fin 256) :
    xblk m c t (ix3 0 n d) = xarr m c (ix3 (bOf t) n d) := by
  show ((cfg0.win 0).blk t).view.read (Elt Ideal) (V m c (Pipeline.arrRef spec0 0)) (ix3 0 n d) = _
  rw [View.read_apply]
  show m ((c : Thread nD τ).loc main_arg0) _ = m ((c : Thread nD τ).loc main_arg0) _
  congr 1
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 4096 + 1 * n.val = n.val; omega
  | ⟨2, _⟩ => show win0_0.index t (2 : Fin 3) * 256 + 1 * d.val = d.val; omega

/-- Row `j`, feature `d` of the second block is row `512·(t % 8) + j` of batch `t / 8` of the second array. -/
theorem yblk_apply (c : Dev nD) (t : Fin cfg0.N) (j : Fin 512) (d : Fin 256) :
    yblk m c t (ix3 0 j d) = yarr m c (ix3 (bOf t) (tileRow (kOf t) j) d) := by
  show ((cfg0.win 1).blk t).view.read (Elt Ideal) (V m c (Pipeline.arrRef spec0 1)) (ix3 0 j d) = _
  rw [View.read_apply]
  show m ((c : Thread nD τ).loc main_arg1) _ = m ((c : Thread nD τ).loc main_arg1) _
  congr 1
  obtain ⟨e0, e1, e2⟩ := idx1 t
  funext a; apply Fin.ext
  match a with
  | ⟨0, _⟩ => show win0_1.index t (0 : Fin 3) * 1 + 1 * 0 = t.val / 8; omega
  | ⟨1, _⟩ => show win0_1.index t (1 : Fin 3) * 512 + 1 * j.val = 512 * (t.val % 8) + j.val; omega
  | ⟨2, _⟩ => show win0_1.index t (2 : Fin 3) * 256 + 1 * d.val = d.val; omega

/-- The body's distance on its two blocks is the arrays' distance at the point's batch and tile. -/
theorem tdist_blocks (c : Dev nD) (t : Fin cfg0.N) (n : Fin 4096) (j : Fin 512) :
    tdist (xblk m c t) (yblk m c t) n j = Cert.Chamfer.dist (xarr m c) (yarr m c) (bOf t) n (tileRow (kOf t) j) := by
  unfold tdist Cert.Chamfer.dist Cert.Chamfer.sq Cert.Chamfer.dot
  simp only [xblk_apply, yblk_apply]

end Cert.KernelIdeal.HandValue

end
-- ==== Proof.Payloads.lean ====
/-
  The kernel body's pure values, read at an index on the extended reals. The distance tile is, at row `n` and column
  `j`, `(Σ_d x_n,d² + Σ_d y_j,d²) − 2·Σ_d x_n,d·y_j,d` (the matrix product into a zero accumulator is the plain sum of
  products; a change of float format is the identity); its minimum down each column and along each row is a
  `Finset.inf` (the reductions start from +∞, the top element); the scratch update is the minimum of the old entry and
  the tile's row minimum; the copy out of the scratch column only changes its layout.
-/
import proofs.«163194_j44581760532793_1_alg».proof.Proof.Gen.KernelIdeal.Skeleton
import proofs.«163194_j44581760532793_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Chamfer.Pay

open Idealize.ShloMosaic Idealize.ShloMosaic.ValueIdx Cert.KernelIdeal Cert.KernelIdeal.Gen Cert.Chamfer

/-! ## The matrix product read at an index -/

/-- The left operand's index at output `i` and contraction index `q`: its row is `i`'s row … -/
theorem lhs_dot_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
/-- … and its column is `q`'s one coordinate. -/
theorem lhs_dot_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
/-- The right operand's index: its row is `q`'s one coordinate … -/
theorem rhs_dot_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
/-- … and its column is `i`'s column. -/
theorem rhs_dot_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- The product into the zero array, at row `n` and column `j`: the sum over the 256 features. -/
theorem matmul_zero_apply (L : FVec Ideal S4096x256 .bf16) (R : FVec Ideal S256x512 .bf16) (n : Fin 4096) (j : Fin 512) :
    matmul dot_S4096x256_S256x512_S4096x512_1_0_0_1_n_n none L R (constant S4096x512 .f32 0x00000000#32) (ix2 n j)
      = ∑ d : Fin 256, L (ix2 n d) * R (ix2 d j) := by
  simp only [matmul]
  rw [Ideal.matmul_constant_zero_apply, ← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 n j) ((contrEquiv1 dot_S4096x256_S256x512_S4096x512_1_0_0_1_n_n 256 rfl rfl).symm k) = ix2 n k := funext fun a => Fin.ext (by
    match a with
    | ⟨0, _⟩ => exact lhs_dot_0 _ _
    | ⟨1, _⟩ => exact (lhs_dot_1 _ _).trans hk)
  have er : dot_S4096x256_S256x512_S4096x512_1_0_0_1_n_n.rhsIdx (ix2 n j) ((contrEquiv1 dot_S4096x256_S256x512_S4096x512_1_0_0_1_n_n 256 rfl rfl).symm k) = ix2 k j := funext fun a => Fin.ext (by
    match a with
    | ⟨0, _⟩ => exact (rhs_dot_0 _ _).trans hk
    | ⟨1, _⟩ => exact rhs_dot_1 _ _)
  rw [el, er]

/-! ## A sum or a minimum along one axis of a matrix -/

/-- The sum along the rows' entries: at `n`, the sum over `d` of the matrix at `(n, d)`. -/
theorem rowSum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ) (n : Fin a) :
    multiReduction (F := Ideal) .add [1] ⟨1, ![a]⟩ src acc h hφ hacc (ix1 n) = ∑ d : Fin b, src (ix2 n d) := by
  refine (Ideal.multiReduction_add_single src acc h hφ hacc (ix1 n)).trans ?_
  refine Finset.sum_congr rfl fun d _ => congrArg src ?_
  exact funext fun c => Fin.ext (by match c with | ⟨0, _⟩ => rfl | ⟨1, _⟩ => rfl)

/-- A minimum along ONE axis, from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 pattern of `+∞` is the top of the extended reals. -/
theorem ofBits_inf_f32 : Ideal.ofBits .f32 0x7F800000#32 = (⊤ : EReal) := by simp [Ideal.ofBits, Ideal.ieee]

/-- The minimum down the columns: at `j`, the infimum over the rows `n` of the matrix at `(n, j)`. -/
theorem colMin_apply {a b : ℕ} (src : FVec Ideal ⟨2, ![a, b]⟩ .f32)
    (h : Shape.Reduces ⟨2, ![a, b]⟩ [0] ⟨1, ![b]⟩) (hφ : FKind.Formats .f32) (hacc : (0x7F800000#32 : BitVec 32) = FKind.minimumf.neutral .f32 hφ) (j : Fin b) :
    multiReduction (F := Ideal) .minimumf [0] ⟨1, ![b]⟩ src 0x7F800000#32 h hφ hacc (ix1 j) = Finset.univ.inf fun n : Fin a => src (ix2 n j) := by
  refine (multiReduction_minimumf_single src _ h hφ hacc (ix1 j)).trans ?_
  show (Finset.univ : Finset (Fin a)).fold min (Ideal.ofBits .f32 0x7F800000#32) (fun n : Fin a => src (h.lift (ix1 j) n)) = _
  rw [ofBits_inf_f32]
  show (Finset.univ.inf fun n : Fin a => src (h.lift (ix1 j) n)) = _
  refine congrArg (Finset.univ.inf) (funext fun n => congrArg src ?_)
  exact funext fun c => Fin.ext (by match c with | ⟨0, _⟩ => rfl | ⟨1, _⟩ => rfl)

/-- The minimum along the rows: at `n`, the infimum over the columns `j` of the matrix at `(n, j)`. -/
theorem rowMin_apply {a b : ℕ} (src : FVec Ideal ⟨2, ![a, b]⟩ .f32)
    (h : Shape.Reduces ⟨2, ![a, b]⟩ [1] ⟨1, ![a]⟩) (hφ : FKind.Formats .f32) (hacc : (0x7F800000#32 : BitVec 32) = FKind.minimumf.neutral .f32 hφ) (n : Fin a) :
    multiReduction (F := Ideal) .minimumf [1] ⟨1, ![a]⟩ src 0x7F800000#32 h hφ hacc (ix1 n) = Finset.univ.inf fun j : Fin b => src (ix2 n j) := by
  refine (multiReduction_minimumf_single src _ h hφ hacc (ix1 n)).trans ?_
  show (Finset.univ : Finset (Fin b)).fold min (Ideal.ofBits .f32 0x7F800000#32) (fun j : Fin b => src (h.lift (ix1 n) j)) = _
  rw [ofBits_inf_f32]
  show (Finset.univ.inf fun j : Fin b => src (h.lift (ix1 n) j)) = _
  refine congrArg (Finset.univ.inf) (funext fun j => congrArg src ?_)
  exact funext fun c => Fin.ext (by match c with | ⟨0, _⟩ => rfl | ⟨1, _⟩ => rfl)

/-! ## Unit axes added -/

/-- A vector cast to one column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector cast to `[1, 1, a]` reads, at `(u, w, i)`, the vector at `i`. -/
theorem shapeCast_a_11a_apply {α : Type} {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw, Nat.zero_mul, Nat.zero_add])

/-- One column broadcast across many reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The distance tile at row `n` and column `j`. -/
theorem pay2_apply (v0 : Vec Ideal S1x4096x256 .f32) (v2 : Vec Ideal S1x512x256 .f32) (n : Fin 4096) (j : Fin 512) :
    k0_pay2 (F := Ideal) v0 v2 (ix2 n j) = tdist v0 v2 n j := by
  unfold k0_pay2 tdist
  simp only [subf_apply, addf_apply, mulf_apply, broadcast_apply]
  refine congrArg₂ (· - ·) (congrArg₂ (· + ·) ?_ ?_) (congrArg₂ (· * ·) rfl ?_)
  · -- the squared norm of row `n` of the first block, spread across the columns
    refine (broadcastTo_a1_ab_apply _ _ n j).trans ?_
    refine (shapeCast_a_a1_apply _ _ n 0).trans ?_
    refine (rowSum_apply _ _ _ _ _ n).trans ?_
    refine Finset.sum_congr rfl fun d _ => ?_
    exact congrArg₂ (· * ·) (shapeCast_1ab_ab_apply v0 _ n d) (shapeCast_1ab_ab_apply v0 _ n d)
  · -- the squared norm of row `j` of the tile, laid along the columns and spread down the rows
    refine (broadcastTo_1b_ab_apply _ _ n j).trans ?_
    refine (transpose_ix2_apply _ _ (0 : Fin 1) j).trans ?_
    refine (shapeCast_a_a1_apply _ _ j 0).trans ?_
    refine (rowSum_apply _ _ _ _ _ j).trans ?_
    refine Finset.sum_congr rfl fun d _ => ?_
    exact congrArg₂ (· * ·) (shapeCast_1ab_ab_apply v2 _ j d) (shapeCast_1ab_ab_apply v2 _ j d)
  · -- the inner product of row `n` of the first block and row `j` of the tile
    refine (matmul_zero_apply _ _ n j).trans ?_
    refine Finset.sum_congr rfl fun d _ => ?_
    refine congrArg₂ (· * ·) ?_ ?_
    · exact shapeCast_1ab_ab_apply v0 _ n d
    · refine (transpose_ix2_apply _ _ d j).trans ?_
      exact shapeCast_1ab_ab_apply v2 _ j d

/-- The column minima of the tile, stored as a `[1, 1, 512]` block. -/
theorem pay3_apply (v0 : Vec Ideal S1x4096x256 .f32) (v2 : Vec Ideal S1x512x256 .f32) (j : Fin 512) :
    k0_pay3 (F := Ideal) v0 v2 (ix3 0 0 j) = Finset.univ.inf fun n : Fin 4096 => tdist v0 v2 n j := by
  unfold k0_pay3
  refine (shapeCast_a_11a_apply _ _ 0 0 j).trans ?_
  refine (colMin_apply _ _ _ _ j).trans ?_
  exact congrArg (Finset.univ.inf) (funext fun n => pay2_apply v0 v2 n j)

/-- The row minima of the tile, as one column. -/
theorem pay4_apply (v0 : Vec Ideal S1x4096x256 .f32) (v2 : Vec Ideal S1x512x256 .f32) (n : Fin 4096) :
    k0_pay4 (F := Ideal) v0 v2 (ix2 n 0) = Finset.univ.inf fun j : Fin 512 => tdist v0 v2 n j := by
  unfold k0_pay4
  refine (shapeCast_a_a1_apply _ _ n 0).trans ?_
  refine (rowMin_apply _ _ _ _ n).trans ?_
  exact congrArg (Finset.univ.inf) (funext fun j => pay2_apply v0 v2 n j)

/-- The same column, cast to its own shape. -/
theorem pay5_apply (v0 : Vec Ideal S1x4096x256 .f32) (v2 : Vec Ideal S1x512x256 .f32) (n : Fin 4096) :
    k0_pay5 (F := Ideal) v0 v2 (ix2 n 0) = Finset.univ.inf fun j : Fin 512 => tdist v0 v2 n j := by
  unfold k0_pay5
  exact (congrFun (shapeCast_self _ _) _).trans (pay4_apply v0 v2 n)

/-- The running row minima: the stored column against this tile's. -/
theorem pay6_apply (v0 : Vec Ideal S1x4096x256 .f32) (v2 : Vec Ideal S1x512x256 .f32) (v36 : Vec Ideal S4096x1 .f32) (n : Fin 4096) :
    k0_pay6 (F := Ideal) v0 v2 v36 (ix2 n 0) = min (v36 (ix2 n 0)) (Finset.univ.inf fun j : Fin 512 => tdist v0 v2 n j) := by
  unfold k0_pay6
  refine (congrFun (shapeCast_self _ _) _).trans ?_
  exact congrArg (min (v36 (ix2 n 0))) (pay4_apply v0 v2 n)

/-- The stored column of row minima, as a `[1, 4096, 1]` block. -/
theorem pay1_apply (v36 : Vec Ideal S4096x1 .f32) (n : Fin 4096) :
    k0_pay1 (F := Ideal) v36 (ix3 0 n 0) = v36 (ix2 n 0) := by
  unfold k0_pay1
  exact shapeCast_ab_1ab_apply v36 _ 0 n 0

end Cert.Chamfer.Pay

end
-- ==== Proof.MinTiles.lean ====
/-
  A minimum over 4096 columns is the minimum, over the eight tiles of 512 columns, of each tile's minimum: every
  column `j` is column `j % 512` of tile `j / 512`.
-/
import proofs.«163194_j44581760532793_1_alg».proof.Proof.Spec

noncomputable section

open scoped BigOperators

namespace Cert.Chamfer

open Idealize.ShloMosaic Idealize.ShloMosaic.ValueIdx

/-- Every column index `j < 4096` is column `j % 512` of tile `j / 512`. -/
theorem eq_tileRow (j : Fin 4096) :
    ∃ (k : Fin 8) (i : Fin 512), j = tileRow k i := by
  refine ⟨⟨j.val / 512, by omega⟩, ⟨j.val % 512, by omega⟩, ?_⟩
  apply Fin.ext
  simp only [tileRow]
  omega

/-- The minimum of any family over the 4096 columns is the minimum over the eight tiles of the minimum
inside each tile: each tile entry is a column (so the whole minimum is below it), and each column lies in
some tile (so the tiled minimum is below it). -/
theorem inf_tiles (f : Fin 4096 → EReal) :
    Finset.univ.inf f
      = Finset.univ.inf fun k : Fin 8 => Finset.univ.inf fun i : Fin 512 => f (tileRow k i) := by
  apply le_antisymm
  · refine Finset.le_inf fun k _ => Finset.le_inf fun i _ => ?_
    exact Finset.inf_le (Finset.mem_univ (tileRow k i))
  · refine Finset.le_inf fun j _ => ?_
    obtain ⟨k, i, rfl⟩ := eq_tileRow j
    refine le_trans (Finset.inf_le (Finset.mem_univ k)) ?_
    exact Finset.inf_le (f := fun i : Fin 512 => f (tileRow k i)) (Finset.mem_univ i)

/-- The row minimum over all 4096 columns is the minimum over the eight tiles of the minimum inside each tile. -/
theorem rowMin_tiles (x y : FVec Ideal SArg .f32) (b : Fin 8) (n : Fin 4096) :
    rowMin x y b n = Finset.univ.inf fun k : Fin 8 => Finset.univ.inf fun j : Fin 512 => dist x y b n (tileRow k j) := by
  unfold rowMin
  exact inf_tiles fun j => dist x y b n j

end Cert.Chamfer

end
-- ==== Proof.KIValueA.lean ====
/-
  What the kernel region leaves, as values on the extended reals. Within a batch the scratch column after tile `k`
  holds, at row `r`, the least distance from row `r` to any column of tiles `0 … k`: the first tile starts it, each
  later tile lowers it by the tile's own row minimum. So after the last tile it holds the row minimum over all 4096
  columns, which is what the last tile copies into the second output's block; and at every point the first output's
  block holds the column minima of the point's tile.
-/
import proofs.«163194_j44581760532793_1_alg».proof.Proof.KIPieces
import proofs.«163194_j44581760532793_1_alg».proof.Proof.KIBlocks
import proofs.«163194_j44581760532793_1_alg».proof.Proof.Payloads
import proofs.«163194_j44581760532793_1_alg».proof.Proof.MinTiles

set_option maxRecDepth 16384

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ) (ρ : Dev nD → PrngReg)

open Cert.KernelIdeal.Hand

/-! ## A minimum taken tile by tile -/

/-- The minimum of `f` over the tiles `0 … k`. -/
def upTo (f : Fin 8 → EReal) (k : ℕ) : EReal := (Finset.univ.filter fun i : Fin 8 => i.val ≤ k).inf f

theorem upTo_zero (f : Fin 8 → EReal) : upTo f 0 = f 0 := by
  unfold upTo
  rw [show (Finset.univ.filter fun i : Fin 8 => i.val ≤ 0) = {0} from by decide, Finset.inf_singleton]

theorem upTo_succ (f : Fin 8 → EReal) (k : ℕ) (hk : k + 1 < 8) : upTo f (k + 1) = min (upTo f k) (f ⟨k + 1, hk⟩) := by
  unfold upTo
  have e : (Finset.univ.filter fun i : Fin 8 => i.val ≤ k + 1) = insert (⟨k + 1, hk⟩ : Fin 8) (Finset.univ.filter fun i : Fin 8 => i.val ≤ k) := by
    ext i
    simp only [Finset.mem_filter, Finset.mem_univ, true_and, Finset.mem_insert, Fin.ext_iff]
    omega
  rw [e, Finset.inf_insert, min_comm]

theorem upTo_last (f : Fin 8 → EReal) : upTo f 7 = Finset.univ.inf f := by
  unfold upTo
  rw [Finset.filter_true_of_mem fun i _ => by have := i.isLt; omega]

/-- The least distance from row `r` of batch `b` to a column of tile `k`. -/
def tileMin (c : Dev nD) (b : Fin 8) (r : Fin 4096) (k : Fin 8) : EReal :=
  Finset.univ.inf fun j : Fin 512 => Cert.Chamfer.dist (xarr m c) (yarr m c) b r (tileRow k j)

/-- The row minimum the body computes on its two blocks at point `t` is that of the point's batch and tile. -/
theorem tile_inf (c : Dev nD) (t : Fin cfg0.N) (r : Fin 4096) :
    (Finset.univ.inf fun j : Fin 512 => tdist (xblk m c t) (yblk m c t) r j) = tileMin m c (bOf t) r (kOf t) := by
  unfold tileMin
  simp only [tdist_blocks]

/-! ## The scratch column after each point -/

/-- At a first tile the scratch column is started at the tile's row minima. -/
theorem scratch_first (c : Dev nD) (t : Fin cfg0.N) (h0 : t.val % 8 = 0) (r : Fin 4096) :
    (outsAt m c t.val t.isLt).2.2 (ix2 r 0) = tileMin m c (bOf t) r (kOf t) := by
  rw [outsAt_A m c t h0]
  dsimp only
  refine (congrFun (sout_A_eq (F := Ideal) c (grid0.coords t) (ms0 t) (hs0 t) (ms1 t) (hs1 t) (ms2 t) (hs2 t) (ms3 t) (hs3 t) scM (Memref.isWhole_whole _) (cA1 t h0) (cA2 t h0) (cA3 t h0) (iblk m c 0 t) (iblk m c 1 t)) (ix2 r 0)).trans ?_
  refine (Cert.Chamfer.Pay.pay5_apply (xblk m c t) (yblk m c t) r).trans ?_
  exact tile_inf m c t r

/-- At a later tile it is lowered by the tile's row minima. -/
theorem scratch_later (c : Dev nD) (t : Fin cfg0.N) (h0 : ¬t.val % 8 = 0) (r : Fin 4096) :
    (outsAt m c t.val t.isLt).2.2 (ix2 r 0)
      = min ((outsAt m c (t.val - 1) (Nat.lt_of_le_of_lt (Nat.sub_le _ _) t.isLt)).2.2 (ix2 r 0)) (tileMin m c (bOf t) r (kOf t)) := by
  by_cases h7 : t.val % 8 = 7
  · rw [outsAt_C m c t h0 h7]
    dsimp only
    refine (congrFun (sout_C_eq (F := Ideal) c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2) (ix2 r 0)).trans ?_
    refine (Cert.Chamfer.Pay.pay6_apply (xblk m c t) (yblk m c t) _ r).trans ?_
    rw [tile_inf]
  · rw [outsAt_B m c t h0 h7]
    dsimp only
    refine (congrFun (sout_B_eq (F := Ideal) c (grid0.coords t) (ms0 t) (hs0 t) (ms1 t) (hs1 t) (ms2 t) (hs2 t) (ms3 t) (hs3 t) scM (Memref.isWhole_whole _) (cB1 t h0) (cB2 t h0) (cB3 t h7) (iblk m c 0 t) (iblk m c 1 t) (outsAt m c (t.val - 1) (Nat.lt_of_le_of_lt (Nat.sub_le _ _) t.isLt)).2.2) (ix2 r 0)).trans ?_
    refine (Cert.Chamfer.Pay.pay6_apply (xblk m c t) (yblk m c t) _ r).trans ?_
    rw [tile_inf]

/-- After point `n` the scratch column holds the minimum over the batch's tiles up to the point's. -/
theorem scratch_eq (c : Dev nD) : ∀ (n : ℕ) (h : n < cfg0.N) (r : Fin 4096),
    (outsAt m c n h).2.2 (ix2 r 0) = upTo (tileMin m c (bOf ⟨n, h⟩) r) (n % 8)
  | 0, h, r => by
    rw [show (0 : ℕ) % 8 = 0 from rfl, upTo_zero]
    exact scratch_first m c ⟨0, h⟩ rfl r
  | n + 1, h, r => by
    by_cases h0 : (n + 1) % 8 = 0
    · rw [h0, upTo_zero]
      refine (scratch_first m c ⟨n + 1, h⟩ h0 r).trans ?_
      exact congrArg _ (Fin.ext h0)
    · refine (scratch_later m c ⟨n + 1, h⟩ h0 r).trans ?_
      have hn : n < cfg0.N := Nat.lt_of_succ_lt h
      have ih := scratch_eq c n hn r
      have hb : bOf ⟨n, hn⟩ = bOf ⟨n + 1, h⟩ := Fin.ext (by show n / 8 = (n + 1) / 8; omega)
      have hk : (n + 1) % 8 = n % 8 + 1 := by omega
      have hk8 : n % 8 + 1 < 8 := by omega
      rw [hk, upTo_succ _ _ hk8, ← hb]
      refine congrArg₂ min ?_ ?_
      · exact ih
      · rw [hb]; exact congrArg _ (Fin.ext hk)

/-! ## The two outputs' blocks -/

/-- At a last tile the second output's block is a copy of the scratch column, -/
theorem out3_eq_scratch (c : Dev nD) (t : Fin cfg0.N) (h7 : t.val % 8 = 7) (r : Fin 4096) :
    (outsAt m c t.val t.isLt).2.1 (ix3 0 r 0) = (outsAt m c t.val t.isLt).2.2 (ix2 r 0) := by
  have h0 : ¬t.val % 8 = 0 := by omega
  rw [outsAt_C m c t h0 h7]
  dsimp only
  rw [out3_C_eq (F := Ideal) c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2,
    sout_C_eq (F := Ideal) c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2]
  exact Cert.Chamfer.Pay.pay1_apply _ r

/-- which by then holds the row minimum over all the columns. -/
theorem out3_last (c : Dev nD) (t : Fin cfg0.N) (h7 : t.val % 8 = 7) (r : Fin 4096) :
    (outsAt m c t.val t.isLt).2.1 (ix3 0 r 0) = rowMin (xarr m c) (yarr m c) (bOf t) r := by
  rw [out3_eq_scratch m c t h7 r, scratch_eq m c t.val t.isLt r, h7, upTo_last, rowMin_tiles]
  rfl

/-- At every point the first output's block holds the column minima of the point's tile. -/
theorem out2_eq (c : Dev nD) (t : Fin cfg0.N) (j : Fin 512) :
    (outsAt m c t.val t.isLt).1 (ix3 0 0 j) = colMin (xarr m c) (yarr m c) (bOf t) (tileRow (kOf t) j) := by
  have key : k0_pay3 (F := Ideal) (xblk m c t) (yblk m c t) (ix3 0 0 j) = colMin (xarr m c) (yarr m c) (bOf t) (tileRow (kOf t) j) := by
    refine (Cert.Chamfer.Pay.pay3_apply (xblk m c t) (yblk m c t) j).trans ?_
    unfold colMin
    simp only [tdist_blocks]
  by_cases h0 : t.val % 8 = 0
  · rw [outsAt_A m c t h0]
    dsimp only
    exact (congrFun (out2_A_eq (F := Ideal) c (grid0.coords t) (ms0 t) (hs0 t) (ms1 t) (hs1 t) (ms2 t) (hs2 t) (ms3 t) (hs3 t) scM (Memref.isWhole_whole _) (cA1 t h0) (cA2 t h0) (cA3 t h0) (iblk m c 0 t) (iblk m c 1 t)) (ix3 0 0 j)).trans key
  · by_cases h7 : t.val % 8 = 7
    · rw [outsAt_C m c t h0 h7]
      dsimp only
      exact (congrFun (out2_C_eq (F := Ideal) c (grid0.coords t) (ms0 t) (hs0 t) (ms1 t) (hs1 t) (ms2 t) (hs2 t) (ms3 t) (hs3 t) scM (Memref.isWhole_whole _) (cB1 t h0) (cB2 t h0) (cC3 t h7) (iblk m c 0 t) (iblk m c 1 t) (outsAt m c (t.val - 1) (Nat.lt_of_le_of_lt (Nat.sub_le _ _) t.isLt)).2.2) (ix3 0 0 j)).trans key
    · rw [outsAt_B m c t h0 h7]
      dsimp only
      exact (congrFun (out2_B_eq (F := Ideal) c (grid0.coords t) (ms0 t) (hs0 t) (ms1 t) (hs1 t) (ms2 t) (hs2 t) (ms3 t) (hs3 t) scM (Memref.isWhole_whole _) (cB1 t h0) (cB2 t h0) (cB3 t h7) (iblk m c 0 t) (iblk m c 1 t) (outsAt m c (t.val - 1) (Nat.lt_of_le_of_lt (Nat.sub_le _ _) t.isLt)).2.2) (ix3 0 0 j)).trans key

end Cert.KernelIdeal.HandValue

end
-- ==== Proof.Tail.lean ====
/-
  The host lines after the kernel region: each of the two result arrays — [8, 1, 4096] holding the column minima,
  [8, 4096, 1] holding the row minima — is summed over all its indices from zero, and the two sums are added. A sum
  over such an index set is the double sum over its two non-unit coordinates, so the result is the loss.
-/
import proofs.«163194_j44581760532793_1_alg».proof.Proof.Gen.KernelIdeal
import proofs.«163194_j44581760532793_1_alg».proof.Proof.Spec
import Idealize.ShloMosaic.Lib.ValueIdx
import Idealize.ShloMosaic.PureOps.Ideal.Laws

noncomputable section

open scoped BigOperators

namespace Cert.Chamfer.Tail

open Idealize.ShloMosaic Idealize.ShloMosaic.ValueIdx Cert.KernelIdeal Cert.Chamfer
open Cert.KernelIdeal.Facts₀

/-- The index set of an 8×1×4096 array is the pairs (batch, column): the middle coordinate is always `0`. -/
def idxEquiv_b0j : S8x1x4096.Idx ≃ Fin 8 × Fin 4096 where
  toFun i := (i 0, i 2)
  invFun p := ix3 p.1 0 p.2
  left_inv i := by
    funext a
    match a with
    | ⟨0, _⟩ => rfl
    | ⟨1, _⟩ => exact Fin.ext (by have h : (i 1).val < 1 := (i 1).isLt; show 0 = (i 1).val; omega)
    | ⟨2, _⟩ => rfl
  right_inv _ := rfl

/-- The index set of an 8×4096×1 array is the pairs (batch, row): the last coordinate is always `0`. -/
def idxEquiv_bn0 : S8x4096x1.Idx ≃ Fin 8 × Fin 4096 where
  toFun i := (i 0, i 1)
  invFun p := ix3 p.1 p.2 0
  left_inv i := by
    funext a
    match a with
    | ⟨0, _⟩ => rfl
    | ⟨1, _⟩ => rfl
    | ⟨2, _⟩ => exact Fin.ext (by have h : (i 2).val < 1 := (i 2).isLt; show 0 = (i 2).val; omega)
  right_inv _ := rfl

/-- A sum over every entry of an 8×1×4096 array is the double sum over batch and column. -/
theorem sum_b0j (f : S8x1x4096.Idx → EReal) : ∑ i, f i = ∑ b : Fin 8, ∑ j : Fin 4096, f (ix3 b 0 j) := by
  rw [← Equiv.sum_comp idxEquiv_b0j.symm f, Fintype.sum_prod_type]
  rfl

/-- A sum over every entry of an 8×4096×1 array is the double sum over batch and row. -/
theorem sum_bn0 (f : S8x4096x1.Idx → EReal) : ∑ i, f i = ∑ b : Fin 8, ∑ n : Fin 4096, f (ix3 b n 0) := by
  rw [← Equiv.sum_comp idxEquiv_bn0.symm f, Fintype.sum_prod_type]
  rfl

/-- The host's sum of a whole 8×1×4096 array from the zero constant is the double sum of its entries. -/
theorem reduceAdd_b0j (A : FVec Ideal S8x1x4096 .f32) (i : S_.Idx) :
    Host.reduceAdd A (constant (F := Ideal) S_ .f32 0x00000000#32) reducesTo_S8x1x4096_S_d0_1_2 h_S_ i
      = ∑ b : Fin 8, ∑ j : Fin 4096, A (ix3 b 0 j) := by
  simp only [Host.reduceAdd, Ideal.hostReduceAdd_def]
  refine (Ideal.hostReduceAdd_total reducesTo_S8x1x4096_S_d0_1_2 (fun b => b.elim0) A _ i).trans ?_
  show Ideal.ofBits .f32 0x00000000#32 + _ = _
  rw [Ideal.ofBits_zero_f32, zero_add, sum_b0j]

/-- The host's sum of a whole 8×4096×1 array from the zero constant is the double sum of its entries. -/
theorem reduceAdd_bn0 (A : FVec Ideal S8x4096x1 .f32) (i : S_.Idx) :
    Host.reduceAdd A (constant (F := Ideal) S_ .f32 0x00000000#32) reducesTo_S8x4096x1_S_d0_1_2 h_S_ i
      = ∑ b : Fin 8, ∑ n : Fin 4096, A (ix3 b n 0) := by
  simp only [Host.reduceAdd, Ideal.hostReduceAdd_def]
  refine (Ideal.hostReduceAdd_total reducesTo_S8x4096x1_S_d0_1_2 (fun b => b.elim0) A _ i).trans ?_
  show Ideal.ofBits .f32 0x00000000#32 + _ = _
  rw [Ideal.ofBits_zero_f32, zero_add, sum_bn0]

/-- The host lines after the region: the two result arrays summed whole and added. -/
theorem tail_loss (x y : FVec Ideal SArg .f32) (A2 : FVec Ideal S8x1x4096 .f32) (A3 : FVec Ideal S8x4096x1 .f32)
    (h2 : ∀ (b : Fin 8) (j : Fin 4096), A2 (ix3 b 0 j) = colMin x y b j)
    (h3 : ∀ (b : Fin 8) (n : Fin 4096), A3 (ix3 b n 0) = rowMin x y b n) :
    addf (Host.reduceAdd A2 (constant (F := Ideal) S_ .f32 0x00000000#32) reducesTo_S8x1x4096_S_d0_1_2 h_S_)
         (Host.reduceAdd A3 (constant (F := Ideal) S_ .f32 0x00000000#32) reducesTo_S8x4096x1_S_d0_1_2 h_S_)
      = fun _ => loss x y := by
  funext i
  rw [addf_apply, reduceAdd_b0j, reduceAdd_bn0]
  simp only [h2, h3]
  rfl

end Cert.Chamfer.Tail

end
-- ==== Proof.KIValueB.lean ====
/-
  The two result arrays after the region, and the program's result. The first result array ends holding, at
  `(b, 0, j)`, the least distance from column `j` of batch `b` to any row: every grid point writes back its tile's
  512 column minima, and the 64 tiles cover the array. The second ends holding, at `(b, n, 0)`, the least distance
  from row `n` to any column: the last tile of each batch writes back the whole column of row minima, and the 8
  batches cover the array. The host lines after the region sum each array whole and add the two sums: the loss.
-/
import proofs.«163194_j44581760532793_1_alg».proof.Proof.KIValueA
import proofs.«163194_j44581760532793_1_alg».proof.Proof.Tail
import Idealize.ShloMosaic.Lib.StableHlo.Run

set_option maxRecDepth 16384

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ) (ρ : Dev nD → PrngReg)

open Cert.KernelIdeal.Hand

/-- What the first result array ends holding: the column minima. -/
def G2 (c : Dev nD) : FVec Ideal S8x1x4096 .f32 :=
  fun i => colMin (xarr m c) (yarr m c) ⟨(i 0).val, (i 0).isLt⟩ ⟨(i 2).val, (i 2).isLt⟩
/-- What the second result array ends holding: the row minima. -/
def G3 (c : Dev nD) : FVec Ideal S8x4096x1 .f32 :=
  fun i => rowMin (xarr m c) (yarr m c) ⟨(i 0).val, (i 0).isLt⟩ ⟨(i 1).val, (i 1).isLt⟩

/-- The first output's block at point `t`, at a block index, is the column minimum at the array index the block puts it at. -/
theorem out2_blk (c : Dev nD) (t : Fin cfg0.N) (y : S1x1x512.Idx) :
    (outsAt m c t.val t.isLt).1 y = G2 m c (((cfg0.win 2).blk t).view.emb y) := by
  obtain ⟨e0, e1, e2⟩ := idx2 t
  have h0 : (y 0).val < 1 := (y 0).isLt
  have h1 : (y 1).val < 1 := (y 1).isLt
  have h2 : (y 2).val < 512 := (y 2).isLt
  have hy : y = ix3 (0 : Fin 1) (0 : Fin 1) (⟨(y 2).val, h2⟩ : Fin 512) := by
    funext a
    match a with
    | ⟨0, _⟩ => exact Fin.ext (by show (y 0).val = 0; omega)
    | ⟨1, _⟩ => exact Fin.ext (by show (y 1).val = 0; omega)
    | ⟨2, _⟩ => rfl
  refine (congrArg (outsAt m c t.val t.isLt).1 hy).trans ?_
  refine (out2_eq m c t ⟨(y 2).val, h2⟩).trans ?_
  unfold G2
  congr 1
  · apply Fin.ext
    show t.val / 8 = win0_2.index t (0 : Fin 3) * 1 + 1 * (y 0).val
    omega
  · apply Fin.ext
    show 512 * (t.val % 8) + (y 2).val = win0_2.index t (2 : Fin 3) * 512 + 1 * (y 2).val
    omega

/-- Point `t` writes back block `t` of the column minima. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after_2]
  funext y
  rw [View.read_apply]
  exact out2_blk m c t y

/-- Every index of the first result array is in some point's block. -/
theorem cover2 (i : S8x1x4096.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : cfg0.N = 64 := N_0
  obtain ⟨t, ht⟩ : ∃ t : Fin cfg0.N, t.val = 8 * (i 0).val + (i 2).val / 512 := ⟨⟨8 * (i 0).val + (i 2).val / 512, by omega⟩, rfl⟩
  refine ⟨t, flush0_2 t, ?_⟩
  obtain ⟨e0, e1, e2⟩ := idx2 t
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 512 ≤ (i 2).val ∧ (i 2).val < win0_2.index t (2 : Fin 3) * 512 + 512
    omega

/-- So the first result array ends holding the column minima. -/
theorem final2 (c : Dev nD) : (dats m 0 c).arrAt 2 cfg0.N = G2 m c :=
  (dats m 0 c).arrAt_eq_of_cover 2 (G2 m c) (fun t _ => flushed2_eq m c t) cover2

/-- The second output's block at a last-tile point, at a block index, is the row minimum at the array index the block puts it at. -/
theorem out3_blk (c : Dev nD) (t : Fin cfg0.N) (h7 : t.val % 8 = 7) (y : S1x4096x1.Idx) :
    (outsAt m c t.val t.isLt).2.1 y = G3 m c (((cfg0.win 3).blk t).view.emb y) := by
  obtain ⟨e0, e1, e2⟩ := idx3 t
  have h0 : (y 0).val < 1 := (y 0).isLt
  have h1 : (y 1).val < 4096 := (y 1).isLt
  have h2 : (y 2).val < 1 := (y 2).isLt
  have hy : y = ix3 (0 : Fin 1) (⟨(y 1).val, h1⟩ : Fin 4096) (0 : Fin 1) := by
    funext a
    match a with
    | ⟨0, _⟩ => exact Fin.ext (by show (y 0).val = 0; omega)
    | ⟨1, _⟩ => rfl
    | ⟨2, _⟩ => exact Fin.ext (by show (y 2).val = 0; omega)
  refine (congrArg (outsAt m c t.val t.isLt).2.1 hy).trans ?_
  refine (out3_last m c t h7 ⟨(y 1).val, h1⟩).trans ?_
  unfold G3
  congr 1
  · apply Fin.ext
    show t.val / 8 = win0_3.index t (0 : Fin 3) * 1 + 1 * (y 0).val
    omega
  · apply Fin.ext
    show (y 1).val = win0_3.index t (1 : Fin 3) * 4096 + 1 * (y 1).val
    omega

/-- A last-tile point writes back the batch's whole column of row minima. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after_3]
  funext y
  rw [View.read_apply]
  exact out3_blk m c t h7 y

/-- Every index of the second result array is in the block of its batch's last tile. -/
theorem cover3 (i : S8x4096x1.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1 := (i 2).isLt
  have hN : cfg0.N = 64 := N_0
  obtain ⟨t, ht⟩ : ∃ t : Fin cfg0.N, t.val = 8 * (i 0).val + 7 := ⟨⟨8 * (i 0).val + 7, by omega⟩, rfl⟩
  refine ⟨t, (flush0_3 t).mpr (by omega), ?_⟩
  obtain ⟨e0, e1, e2⟩ := idx3 t
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 4096 ≤ (i 1).val ∧ (i 1).val < win0_3.index t (1 : Fin 3) * 4096 + 4096
    omega
  | ⟨2, _⟩ =>
    show win0_3.index t (2 : Fin 3) * 1 ≤ (i 2).val ∧ (i 2).val < win0_3.index t (2 : Fin 3) * 1 + 1
    omega

/-- So the second result array ends holding the row minima. -/
theorem final3 (c : Dev nD) : (dats m 0 c).arrAt 3 cfg0.N = G3 m c :=
  (dats m 0 c).arrAt_eq_of_cover 3 (G3 m c) (flushed3_eq m c) cover3

/-- The host lines after the region, over the two result arrays as the region leaves them, compute the loss. -/
theorem tail_value (c : Dev nD) :
    Pipeline.afterTail₀ cfgs (dats m) 0 (V0 m) [hostOps1] c main_v3 = fun _ => loss (xarr m c) (yarr m c) := by
  unfold Pipeline.afterTail₀
  show StableHlo.after hostOps1 _ (Proc.devRef .tc main_v3) = _
  after_results
  have e2 := (Pipeline.withArrays_arr (Val := Elt Ideal) spec0 launch0.win.arr_inj c (V0 m c) (fun w => (dats m 0 c).arrAt w cfg0.N) 2).trans (final2 m c)
  have e3 := (Pipeline.withArrays_arr (Val := Elt Ideal) spec0 launch0.win.arr_inj c (V0 m c) (fun w => (dats m 0 c).arrAt w cfg0.N) 3).trans (final3 m c)
  rw [show Pipeline.withArrays (cfgs 0).spec c (V0 m c) (fun w => (dats m 0 c).arrAt w (cfgs 0).N) (Proc.devRef .tc main_v0_0) = G2 m c from e2,
    show Pipeline.withArrays (cfgs 0).spec c (V0 m c) (fun w => (dats m 0 c).arrAt w (cfgs 0).N) (Proc.devRef .tc main_v0_1) = G3 m c from e3]
  exact Cert.Chamfer.Tail.tail_loss (xarr m c) (yarr m c) (G2 m c) (G3 m c) (fun b j => rfl) (fun b n => rfl)

/-- The idealized kernel program runs to the loss of its arguments, which it leaves unchanged. -/
theorem run_loss : θ_run defs (onTc (τ := τ) (main (F := Ideal))) ⟨m, fun _ => 0, ρ⟩ fun r => ∀ c : Dev nD,
      r.2.mem ((c.tc : Thread nD τ).loc main_v3) = (fun _ => loss (xarr m c) (yarr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v3 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main (F := Ideal) m ρ)

end Cert.KernelIdeal.HandValue

end
-- ==== Proof.RefLoss.lean ====
/-
  The reference program computes the loss of `Spec`: its table of distances is `dist` at every `(b, n, j)` (row sums
  from zero, the batched inner products, the two broadcasts), its two minimum-reductions are `colMin` and `rowMin`,
  and its two total sums, added, are `loss`. So its run ends at the loss of its arguments.
-/
import proofs.«163194_j44581760532793_1_alg».proof.Proof.Gen.ReferenceIdeal.Run
import proofs.«163194_j44581760532793_1_alg».proof.Proof.Gen.ReferenceIdeal.Read
import proofs.«163194_j44581760532793_1_alg».proof.Proof.Spec
import Idealize.ShloMosaic.Lib.ValueIdx
import Idealize.ShloMosaic.PureOps.Ideal.Laws

noncomputable section

open scoped BigOperators

namespace Cert.Chamfer.Ref

open Idealize.ShloMosaic Idealize.ShloMosaic.TcCoe Idealize.SL.Sem Idealize.ShloMosaic.ValueIdx Cert.ReferenceIdeal Cert.ReferenceIdeal.Gen Cert.Chamfer

/-- At batch `b`, row `n`, column `j` the difference stage is the squared distance: the two broadcast row sums are the
    squared norms (each sum starts from zero), and the product stage is two times the inner product. -/
theorem v12_apply (x0 x1 : (⟨S8x4096x256, .f32⟩ : BufTy).Contents (Elt Ideal)) (b : Fin 8) (n j : Fin 4096) :
    Cert.ReferenceIdeal.Read.val_main_v12 (F := Ideal) x0 x1 (ix3 b n j) = dist x0 x1 b n j := by
  rw [Read.val_main_v12_apply, Read.val_main_v9_apply, Read.val_main_v11_apply, Read.val_main_v7_apply,
    Read.val_main_v5_apply, Read.val_main_v1_apply, Read.val_main_v8_apply, Read.val_main_v6_apply,
    Read.val_main_v3_apply, Read.val_main_v10_apply, Read.val_main_cst_1_apply, Read.val_main_v4_apply,
    Read.val_main_cst_apply, Read.val_main_cst_0_apply]
  have e1 : ∀ k : Fin 256, Read.idx_main_v1 (Read.idx_main_v5 (Read.idx_main_v7 (ix3 b n j))) k = ix3 b n k :=
    fun k => funext fun a => Fin.ext (by match a with | ⟨0, _⟩ => rfl | ⟨1, _⟩ => rfl | ⟨2, _⟩ => rfl)
  have e3 : ∀ k : Fin 256, Read.idx_main_v3 (Read.idx_main_v6 (Read.idx_main_v8 (ix3 b n j))) k = ix3 b j k :=
    fun k => funext fun a => Fin.ext (by match a with | ⟨0, _⟩ => rfl | ⟨1, _⟩ => rfl | ⟨2, _⟩ => rfl)
  have el : ∀ k : Fin 256, Read.lidx_main_v4 (ix3 b n j) k = ix3 b n k :=
    fun k => funext fun a => Fin.ext (by match a with | ⟨0, _⟩ => rfl | ⟨1, _⟩ => rfl | ⟨2, _⟩ => rfl)
  have er : ∀ k : Fin 256, Read.ridx_main_v4 (ix3 b n j) k = ix3 b j k :=
    fun k => funext fun a => Fin.ext (by match a with | ⟨0, _⟩ => rfl | ⟨1, _⟩ => rfl | ⟨2, _⟩ => rfl)
  simp only [e1, e3, el, er, Read.val_main_v0_apply, Read.val_main_v2_apply, Ideal.ofBits_def, Ideal.addf_def,
    Ideal.subf_def, Ideal.mulf_def, Ideal.ofBits_zero_f32, zero_add]
  rfl

/-- The value both minima start from is `+∞`. -/
theorem top_f32 : FloatOps.ofBits (F := Ideal) .f32 0x7F800000#32 = (⊤ : EReal) := by
  rw [Ideal.ofBits_def]; simp [Ideal.ofBits, Ideal.ieee]

/-- The minimum over the rows (axis 1), at batch `b` and column `j`, is the column minimum: the indices over `(b, j)` are
    `(b, n, j)` for each row `n`, and a fold of `min` from `⊤` over all rows is `Finset.inf`. -/
theorem v13_apply (x0 x1 : (⟨S8x4096x256, .f32⟩ : BufTy).Contents (Elt Ideal)) (b : Fin 8) (j : Fin 4096) :
    Cert.ReferenceIdeal.Read.val_main_v13 (F := Ideal) x0 x1 (ix2 b j) = colMin x0 x1 b j := by
  have h : S8x4096x4096.Reduces [1] S8x4096 := by decide
  unfold Read.val_main_v13
  rw [Host.reduce_eq_fold_single (FloatOps.minimumf (F := Ideal) (φ := .f32)) _ _ reducesTo_S8x4096x4096_S8x4096_d1 h h_S_ (ix2 b j)]
  rw [Read.val_main_cst_2_apply, top_f32]
  have hfun : (Read.val_main_v12 (F := Ideal) x0 x1 ∘ h.lift (ix2 b j)) = fun n : Fin 4096 => dist x0 x1 b n j := by
    funext n
    show Read.val_main_v12 (F := Ideal) x0 x1 (h.lift (ix2 b j) n) = _
    rw [show h.lift (ix2 b j) n = ix3 b n j from
      funext fun a => Fin.ext (by match a with | ⟨0, _⟩ => rfl | ⟨1, _⟩ => rfl | ⟨2, _⟩ => rfl)]
    exact v12_apply x0 x1 b n j
  rw [hfun]
  rfl

/-- The minimum over the columns (axis 2), at batch `b` and row `n`, is the row minimum, likewise. -/
theorem v15_apply (x0 x1 : (⟨S8x4096x256, .f32⟩ : BufTy).Contents (Elt Ideal)) (b : Fin 8) (n : Fin 4096) :
    Cert.ReferenceIdeal.Read.val_main_v15 (F := Ideal) x0 x1 (ix2 b n) = rowMin x0 x1 b n := by
  have h : S8x4096x4096.Reduces [2] S8x4096 := by decide
  unfold Read.val_main_v15
  rw [Host.reduce_eq_fold_single (FloatOps.minimumf (F := Ideal) (φ := .f32)) _ _ reducesTo_S8x4096x4096_S8x4096_d2 h h_S_ (ix2 b n)]
  rw [Read.val_main_cst_4_apply, top_f32]
  have hfun : (Read.val_main_v12 (F := Ideal) x0 x1 ∘ h.lift (ix2 b n)) = fun j : Fin 4096 => dist x0 x1 b n j := by
    funext j
    show Read.val_main_v12 (F := Ideal) x0 x1 (h.lift (ix2 b n) j) = _
    rw [show h.lift (ix2 b n) j = ix3 b n j from
      funext fun a => Fin.ext (by match a with | ⟨0, _⟩ => rfl | ⟨1, _⟩ => rfl | ⟨2, _⟩ => rfl)]
    exact v12_apply x0 x1 b n j
  rw [hfun]
  rfl

/-- The reference's last stage is the loss. -/
theorem val_loss (x0 x1 : (⟨S8x4096x256, .f32⟩ : BufTy).Contents (Elt Ideal)) :
    Cert.ReferenceIdeal.Read.val_main_v17 (F := Ideal) x0 x1 = fun _ => loss x0 x1 := by
  funext i
  rw [Read.val_main_v17_apply, Read.val_main_v14_apply, Read.val_main_v16_apply, Read.val_main_cst_3_apply,
    Read.val_main_cst_5_apply, sum_idx2, sum_idx2]
  simp only [v13_apply, v15_apply, Ideal.ofBits_def, Ideal.addf_def, Ideal.ofBits_zero_f32, zero_add]
  rfl

/-- The reference runs to the loss of its arguments, which it leaves unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono
    (fun _ h c => ⟨(h c).1.trans ((Cert.ReferenceIdeal.Read.val_main_v17_eq _ _).trans (val_loss _ _)), (h c).2⟩)
    (Cert.ReferenceIdeal.Value.run (F := Ideal) m ρ)

end Cert.Chamfer.Ref

end
-- ==== Proof.lean ====
/-
  The squared-distance loss between two batches of point sets, computed two ways, is one number.

  Both programs take `x, y : f32[8, 4096, 256]` and form, per batch, the 4096 × 4096 table of squared distances
  `(‖x_n‖² + ‖y_j‖²) − 2·⟨x_n, y_j⟩`; the loss is the sum over batches of every column's minimum plus the sum of every
  row's minimum. The reference builds the whole table and reduces it twice. The kernel walks the table tile by tile
  (512 columns at a time, all rows): each tile yields its columns' minima at once, and a scratch column keeps the
  running minimum of each row across the eight tiles of a batch, copied out after the last. Over the extended reals a
  minimum taken tile by tile is the minimum, the distance is the same expression on both sides, and a sum does not
  depend on how its index set is laid out: the two results agree on every input, finite or not.

  The three frames: each kernel program's run is the region's launch over the body's triple at every grid point
  (three cases: first, middle and last tile of a batch), the reference's its straight line of host operations.
  The idealization rewrote nothing.
-/
import proofs.«163194_j44581760532793_1_alg».proof.Defs
import proofs.«163194_j44581760532793_1_alg».proof.Proof.Gen.Kernel
import proofs.«163194_j44581760532793_1_alg».proof.Proof.Gen.KernelIdeal
import proofs.«163194_j44581760532793_1_alg».proof.Proof.Gen.ReferenceIdeal
import proofs.«163194_j44581760532793_1_alg».proof.Proof.Gen.Pre_finite_inputs
import proofs.«163194_j44581760532793_1_alg».proof.Proof.KFrame
import proofs.«163194_j44581760532793_1_alg».proof.Proof.KIValueB
import proofs.«163194_j44581760532793_1_alg».proof.Proof.RefLoss

noncomputable section

namespace Cert.Proof

open Idealize.ShloMosaic Idealize.ShloMosaic.TcCoe Idealize.SL.Sem

/-- The word-level kernel program runs, faults nowhere and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- So does the reference: its run, the result dropped. -/
theorem frame_ri : Cert.frame_ReferenceIdeal := fun m ρ _ =>
  (θ_run Cert.ReferenceIdeal.defs _ _).mono (fun _ h c => (h c).2) (Cert.Chamfer.Ref.run m ρ)

/-- The idealization rewrote no operation. -/
theorem preserves : Cert.preserves_Kernel_KernelIdeal := trivial

/-- From arguments that agree, both idealized programs end at the loss of those arguments. -/
theorem algebraic : Cert.algebraic_KernelIdeal_ReferenceIdeal := by
  intro m ρ m' ρ' _ hagree
  refine ⟨fun c => fun _ => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run_loss m ρ, ?_⟩
  refine (θ_run Cert.ReferenceIdeal.defs _ _).mono (fun _ h c => ⟨(h c).1.trans ?_, (h c).2⟩) (Cert.Chamfer.Ref.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
